-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x129 : Shape := ⟨3, ![8, 1024, 129]⟩
abbrev S8x1024x1024 : Shape := ⟨3, ![8, 1024, 1024]⟩
abbrev S128x32 : Shape := ⟨2, ![128, 32]⟩
abbrev S32 : Shape := ⟨1, ![32]⟩
abbrev S32x512 : Shape := ⟨2, ![32, 512]⟩
abbrev S512 : Shape := ⟨1, ![512]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S8x1024x129 : S_.BroadcastsInDim S8x1024x129 (![] : Fin 0 → Fin S8x1024x129.rank)
  reducesTo_S8x1024x129_S_d0_1_2 : S8x1024x129.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S32 .f32) (main_arg8 : FVec F S32x2 .f32) (main_arg9 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x2 .f32 := Host.absf main_arg8
  let main_cst_14 : FVec F S_ .f32 := constant S_ .f32 0x7F800000#32
  let main_v40 : FVec F S32x2 .f32 := broadcastInDim S32x2 ![] bcast_S_S32x2 main_cst_14
  let main_v41 : IVec S32x2 1 := cmpf .olt main_v39 main_v40
  let main_c_15 : IVec S_ 1 := constantI S_ 1 1#1
  let main_v42 : IVec S_ 1 := (fun x v => Host.reduce IntOp.andi x v reducesTo_S32x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg4 : FVec F S32x512 .f32) (main_arg5 : FVec F S512 .f32) (main_arg6 : FVec F S32x32 .f32) (main_arg7 : FVec F S32 .f32) (main_arg8 : FVec F S32x2 .f32) (main_arg9 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x1024x129 .f32) (main_arg1 : FVec F S8x1024x1024 .f32) (main_arg2 : FVec F S128x32 .f32) (main_arg3 : FVec F S32 .f32) (main_arg4 : FVec F S32x512 .f32) (main_arg5 : FVec F S512 .f32) (main_arg6 : FVec F S32x32 .f32) (main_arg7 : FVec F S32 .f32) (main_arg8 : FVec F S32x2 .f32) (main_arg9 : FVec F S2 .f32) : IVec S_ 1 :=
  let main_v0 : FVec F S8x1024x129 .f32 := Host.absf main_arg0
  let main_cst : FVec F S_ .f32 := constant S_ .f32 0x7F800000#32
  let main_v1 : FVec F S8x1024x129 .f32 := broadcastInDim S8x1024x129 ![] bcast_S_S8x1024x129 main_cst
  let main_v2 : IVec S8x1024x129 1 := cmpf .olt main_v0 main_v1
  let main_c : IVec S_ 1 := constantI S_ 1 1#1
  let main_v3 : IVec S_ 1 := (fun x v => Host.reduce IntOp.andi x v reducesTo_S8x1024x129_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S8x1024x129 : Shape := ⟨3, ![8, 1024, 129]⟩
abbrev S8x1024x1024 : Shape := ⟨3, ![8, 1024, 1024]⟩
abbrev S128x32 : Shape := ⟨2, ![128, 32]⟩
abbrev S32 : Shape := ⟨1, ![32]⟩
abbrev S32x512 : Shape := ⟨2, ![32, 512]⟩
abbrev S512 : Shape := ⟨1, ![512]⟩
abbrev S32x32 : Shape := ⟨2, ![32, 32]⟩
abbrev S32x2 : Shape := ⟨2, ![32, 2]⟩
abbrev S2 : Shape := ⟨1, ![2]⟩
abbrev S1x32 : Shape := ⟨2, ![1, 32]⟩
abbrev S1x512 : Shape := ⟨2, ![1, 512]⟩
abbrev S1x2 : Shape := ⟨2, ![1, 2]⟩
abbrev S8x1x2 : Shape := ⟨3, ![8, 1, 2]⟩
abbrev S1x1024x129 : Shape := ⟨3, ![1, 1024, 129]⟩
abbrev S1x1024x1024 : Shape := ⟨3, ![1, 1024, 1024]⟩
abbrev S1x1x2 : Shape := ⟨3, ![1, 1, 2]⟩
abbrev S1024x129 : Shape := ⟨2, ![1024, 129]⟩
abbrev S1024x1024 : Shape := ⟨2, ![1024, 1024]⟩
abbrev S1024x1 : Shape := ⟨2, ![1024, 1]⟩
abbrev S1024x128 : Shape := ⟨2, ![1024, 128]⟩
abbrev S1024x32 : Shape := ⟨2, ![1024, 32]⟩
abbrev S1024x512 : Shape := ⟨2, ![1024, 512]⟩
abbrev S1024 : Shape := ⟨1, ![1024]⟩
abbrev S512x32 : Shape := ⟨2, ![512, 32]⟩
abbrev S512x512 : Shape := ⟨2, ![512, 512]⟩
abbrev S512x1 : Shape := ⟨2, ![512, 1]⟩
abbrev S8x2 : Shape := ⟨2, ![8, 2]⟩

abbrev nBuf : Space → Nat
  | .hbm => 16
  | .vmem => 14
  | .smem => 0
  | _ => 0

abbrev bufTy : (tb : Table) → Fin (tcTables nBuf tb) → BufTy
  | .hbm, ⟨0, _⟩ => ⟨S8x1024x129, .f32⟩
  | .hbm, ⟨1, _⟩ => ⟨S8x1024x1024, .f32⟩
  | .hbm, ⟨2, _⟩ => ⟨S128x32, .f32⟩
  | .hbm, ⟨3, _⟩ => ⟨S32, .f32⟩
  | .hbm, ⟨4, _⟩ => ⟨S32x512, .f32⟩
  | .hbm, ⟨5, _⟩ => ⟨S512, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1x32, .f32⟩
  | .hbm, ⟨11, _⟩ => ⟨S1x512, .f32⟩
  | .hbm, ⟨12, _⟩ => ⟨S1x32, .f32⟩
  | .hbm, ⟨13, _⟩ => ⟨S1x2, .f32⟩
  | .hbm, ⟨14, _⟩ => ⟨S8x1x2, .f32⟩
  | .hbm, ⟨15, _⟩ => ⟨S8x2, .f32⟩
  | .local _ .vmem, ⟨0, _⟩ => ⟨S1x1024x129, .f32⟩
  | .local _ .vmem, ⟨1, _⟩ => ⟨S1x1024x129, .f32⟩
  | .local _ .vmem, ⟨2, _⟩ => ⟨S1x1024x1024, .f32⟩
  | .local _ .vmem, ⟨3, _⟩ => ⟨S1x1024x1024, .f32⟩
  | .local _ .vmem, ⟨4, _⟩ => ⟨S128x32, .f32⟩
  | .local _ .vmem, ⟨5, _⟩ => ⟨S1x32, .f32⟩
  | .local _ .vmem, ⟨6, _⟩ => ⟨S32x512, .f32⟩
  | .local _ .vmem, ⟨7, _⟩ => ⟨S1x512, .f32⟩
  | .local _ .vmem, ⟨8, _⟩ => ⟨S32x32, .f32⟩
  | .local _ .vmem, ⟨9, _⟩ => ⟨S1x32, .f32⟩
  | .local _ .vmem, ⟨10, _⟩ => ⟨S32x2, .f32⟩
  | .local _ .vmem, ⟨11, _⟩ => ⟨S1x2, .f32⟩
  | .local _ .vmem, ⟨12, _⟩ => ⟨S1x1x2, .f32⟩
  | .local _ .vmem, ⟨13, _⟩ => ⟨S1x1x2, .f32⟩
  | _, _ => ⟨S8x1024x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S32_S1x32 : S32.ShapeCasts S1x32
  shapeCasts_S512_S1x512 : S512.ShapeCasts S1x512
  shapeCasts_S2_S1x2 : S2.ShapeCasts S1x2
  inb_S1x1024x129_S1x1024x129_0_0_0 : ∀ a, (![0, 0, 0] : Fin 3 → Nat) a + S1x1024x129.size a ≤ S1x1024x129.size a
  h_S1x1024x129 : 0 < S1x1024x129.numel
  shapeCasts_S1x1024x129_S1024x129 : S1x1024x129.ShapeCasts S1024x129
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x129_o0_128_S1024x1 : S1024x129.Slices ![0, 128] S1024x1
  slices_S1024x129_o0_0_S1024x128 : S1024x129.Slices ![0, 0] S1024x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  broadcasts_S1024x1_S1024x32 : S1024x1.Broadcasts S1024x32
  inb_S32x512_S32x512_0_0 : ∀ a, (![0, 0] : Fin 2 → Nat) a + S32x512.size a ≤ S32x512.size a
  h_S32x512 : 0 < S32x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  shapeCasts_S512x1_S1x512 : S512x1.ShapeCasts S1x512
  broadcasts_S1x512_S512x512 : S1x512.Broadcasts S512x512
  inb_S32x32_S32x32_0_0 : ∀ a, (![0, 0] : Fin 2 → Nat) a + S32x32.size a ≤ S32x32.size a
  h_S32x32 : 0 < S32x32.numel
  broadcasts_S1x32_S512x32 : S1x32.Broadcasts S512x32
  reduces_S512x32_S32 : S512x32.Reduces [0] S32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  shapeCasts_S8x1x2_S8x2 : S8x1x2.ShapeCasts S8x2
  dot_S1024x128_S128x32_S1024x32_1_0_0_1_n_n_wf : DotDims.WF S1024x128 S128x32 S1024x32 [1] [0] [0] [1] [] []
  dot_S1024x1024_S1024x32_S1024x32_1_0_0_1_n_n_wf : DotDims.WF S1024x1024 S1024x32 S1024x32 [1] [0] [0] [1] [] []
  dot_S1024x32_S32x512_S1024x512_1_0_0_1_n_n_wf : DotDims.WF S1024x32 S32x512 S1024x512 [1] [0] [0] [1] [] []
  dot_S1024x512_S1024x32_S512x32_0_0_1_1_n_n_wf : DotDims.WF S1024x512 S1024x32 S512x32 [0] [0] [1] [1] [] []
  dot_S1024x1024_S1024x512_S1024x512_1_0_0_1_n_n_wf : DotDims.WF S1024x1024 S1024x512 S1024x512 [1] [0] [0] [1] [] []
  dot_S1024x512_S1024x512_S512x512_0_0_1_1_n_n_wf : DotDims.WF S1024x512 S1024x512 S512x512 [0] [0] [1] [1] [] []
  dot_S512x32_S32x32_S512x32_1_0_0_1_n_n_wf : DotDims.WF S512x32 S32x32 S512x32 [1] [0] [0] [1] [] []
  dot_S512x512_S512x32_S512x32_1_0_0_1_n_n_wf : DotDims.WF S512x512 S512x32 S512x32 [1] [0] [0] [1] [] []
  dot_S1x32_S32x2_S1x2_1_0_0_1_n_n_wf : DotDims.WF S1x32 S32x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x129.size a ≤ S8x1024x129.size a
  hwx0_0 : ∀ i : grid0.Coords, EltTy.bits .f32 = 32 ∨ (Rect.block (s := S8x1024x129) S1x1024x129.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x2.size a ≤ S32x2.size a
  hwx0_8 : ∀ i : grid0.Coords, EltTy.bits .f32 = 32 ∨ (Rect.block (s := S32x2) S32x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2.size a ≤ S1x2.size a
  hwx0_9 : ∀ i : grid0.Coords, EltTy.bits .f32 = 32 ∨ (Rect.block (s := S1x2) S1x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x2.size a ≤ S8x1x2.size a
  hwx0_10 : ∀ i : grid0.Coords, EltTy.bits .f32 = 32 ∨ (Rect.block (s := S8x1x2) S1x1x2.size (cc0_transform_10 i) (hinb0_10 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf
def dot_S1024x512_S1024x32_S512x32_0_0_1_1_n_n : DotDims S1024x512 S1024x32 S512x32 where
  lhsContracting := [0]
  rhsContracting := [0]
  lhsNonContracting := [1]
  rhsNonContracting := [1]
  lhsBatch := []
  rhsBatch := []
  wf := dot_S1024x512_S1024x32_S512x32_0_0_1_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

abbrev win0_0 : Pipeline.Window sig grid0 :=
  Pipeline.Window.ofSpec (Memref.whole main_arg0) S1x1024x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x1x2.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x1024x129 : Shape := ⟨3, ![8, 1024, 129]⟩
abbrev S8x1024x1024 : Shape := ⟨3, ![8, 1024, 1024]⟩
abbrev S128x32 : Shape := ⟨2, ![128, 32]⟩
abbrev S32 : Shape := ⟨1, ![32]⟩
abbrev S32x512 : Shape := ⟨2, ![32, 512]⟩
abbrev S512 : Shape := ⟨1, ![512]⟩
abbrev S32x32 : Shape := ⟨2, ![32, 32]⟩
abbrev S32x2 : Shape := ⟨2, ![32, 2]⟩
abbrev S2 : Shape := ⟨1, ![2]⟩
abbrev S8x1024x1 : Shape := ⟨3, ![8, 1024, 1]⟩
abbrev S8x1024x128 : Shape := ⟨3, ![8, 1024, 128]⟩
abbrev S8x1024x32 : Shape := ⟨3, ![8, 1024, 32]⟩
abbrev S1x1x32 : Shape := ⟨3, ![1, 1, 32]⟩
abbrev S_ : Shape := ⟨0, ![]⟩
abbrev S8x1024x512 : Shape := ⟨3, ![8, 1024, 512]⟩
abbrev S1x1x512 : Shape := ⟨3, ![1, 1, 512]⟩
abbrev S8x1024 : Shape := ⟨2, ![8, 1024]⟩
abbrev S8x512x32 : Shape := ⟨3, ![8, 512, 32]⟩
abbrev S8x512x512 : Shape := ⟨3, ![8, 512, 512]⟩
abbrev S512x512 : Shape := ⟨2, ![512, 512]⟩
abbrev S1x512x512 : Shape := ⟨3, ![1, 512, 512]⟩
abbrev S8x512 : Shape := ⟨2, ![8, 512]⟩
abbrev S8x512x1 : Shape := ⟨3, ![8, 512, 1]⟩
abbrev S8x1x512 : Shape := ⟨3, ![8, 1, 512]⟩
abbrev S8x32 : Shape := ⟨2, ![8, 32]⟩
abbrev S8x2 : Shape := ⟨2, ![8, 2]⟩
abbrev S1x2 : Shape := ⟨2, ![1, 2]⟩

abbrev nBuf : Space → Nat
  | .hbm => 94
  | .vmem => 0
  | .smem => 0
  | _ => 0

abbrev bufTy : (tb : Table) → Fin (tcTables nBuf tb) → BufTy
  | .hbm, ⟨0, _⟩ => ⟨S8x1024x129, .f32⟩
  | .hbm, ⟨1, _⟩ => ⟨S8x1024x1024, .f32⟩
  | .hbm, ⟨2, _⟩ => ⟨S128x32, .f32⟩
  | .hbm, ⟨3, _⟩ => ⟨S32, .f32⟩
  | .hbm, ⟨4, _⟩ => ⟨S32x512, .f32⟩
  | .hbm, ⟨5, _⟩ => ⟨S512, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S8x1024x1, .f32⟩
  | .hbm, ⟨11, _⟩ => ⟨S8x1024x128, .f32⟩
  | .hbm, ⟨12, _⟩ => ⟨S8x1024x32, .f32⟩
  | .hbm, ⟨13, _⟩ => ⟨S8x1024x32, .f32⟩
  | .hbm, ⟨14, _⟩ => ⟨S1x1x32, .f32⟩
  | .hbm, ⟨15, _⟩ => ⟨S8x1024x32, .f32⟩
  | .hbm, ⟨16, _⟩ => ⟨S8x1024x32, .f32⟩
  | .hbm, ⟨17, _⟩ => ⟨S_, .f32⟩
  | .hbm, ⟨18, _⟩ => ⟨S8x1024x32, .f32⟩
  | .hbm, ⟨19, _⟩ => ⟨S8x1024x32, .f32⟩
  | .hbm, ⟨20, _⟩ => ⟨S8x1024x32, .f32⟩
  | .hbm, ⟨21, _⟩ => ⟨S8x1024x32, .f32⟩
  | .hbm, ⟨22, _⟩ => ⟨S8x1024x512, .f32⟩
  | .hbm, ⟨23, _⟩ => ⟨S1x1x512, .f32⟩
  | .hbm, ⟨24, _⟩ => ⟨S8x1024x512, .f32⟩
  | .hbm, ⟨25, _⟩ => ⟨S8x1024x512, .f32⟩
  | .hbm, ⟨26, _⟩ => ⟨S_, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024x1, .f32⟩
  | .hbm, ⟨32, _⟩ => ⟨S8x1024x512, .f32⟩
  | .hbm, ⟨33, _⟩ => ⟨S8x1024x512, .f32⟩
  | .hbm, ⟨34, _⟩ => ⟨S8x1024x512, .f32⟩
  | .hbm, ⟨35, _⟩ => ⟨S_, .f32⟩
  | .hbm, ⟨36, _⟩ => ⟨S8x1024, .f32⟩
  | .hbm, ⟨37, _⟩ => ⟨S8x1024x1, .f32⟩
  | .hbm, ⟨38, _⟩ => ⟨S8x1024x512, .f32⟩
  | .hbm, ⟨39, _⟩ => ⟨S8x1024x512, .f32⟩
  | .hbm, ⟨40, _⟩ => ⟨S8x1024x512, .f32⟩
  | .hbm, ⟨41, _⟩ => ⟨S8x1024x512, .f32⟩
  | .hbm, ⟨42, _⟩ => ⟨S8x512x32, .f32⟩
  | .hbm, ⟨43, _⟩ => ⟨S8x1024x512, .f32⟩
  | .hbm, ⟨44, _⟩ => ⟨S8x512x512, .f32⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S1x512x512, .f32⟩
  | .hbm, ⟨56, _⟩ => ⟨S8x512x512, .f32⟩
  | .hbm, ⟨57, _⟩ => ⟨S8x512x512, .f32⟩
  | .hbm, ⟨58, _⟩ => ⟨S_, .f32⟩
  | .hbm, ⟨59, _⟩ => ⟨S8x512, .f32⟩
  | .hbm, ⟨60, _⟩ => ⟨S_, .f32⟩
  | .hbm, ⟨61, _⟩ => ⟨S8x512, .f32⟩
  | .hbm, ⟨62, _⟩ => ⟨S8x512, .i1⟩
  | .hbm, ⟨63, _⟩ => ⟨S_, .f32⟩
  | .hbm, ⟨64, _⟩ => ⟨S8x512, .f32⟩
  | .hbm, ⟨65, _⟩ => ⟨S8x512, .f32⟩
  | .hbm, ⟨66, _⟩ => ⟨S8x512, .f32⟩
  | .hbm, ⟨67, _⟩ => ⟨S_, .f32⟩
  | .hbm, ⟨68, _⟩ => ⟨S8x512, .f32⟩
  | .hbm, ⟨69, _⟩ => ⟨S8x512, .f32⟩
  | .hbm, ⟨70, _⟩ => ⟨S_, .f32⟩
  | .hbm, ⟨71, _⟩ => ⟨S_, .f32⟩
  | .hbm, ⟨72, _⟩ => ⟨S8x512, .f32⟩
  | .hbm, ⟨73, _⟩ => ⟨S8x512, .f32⟩
  | .hbm, ⟨74, _⟩ => ⟨S8x512x1, .f32⟩
  | .hbm, ⟨75, _⟩ => ⟨S8x512x512, .f32⟩
  | .hbm, ⟨76, _⟩ => ⟨S8x512x512, .f32⟩
  | .hbm, ⟨77, _⟩ => ⟨S8x1x512, .f32⟩
  | .hbm, ⟨78, _⟩ => ⟨S8x512x512, .f32⟩
  | .hbm, ⟨79, _⟩ => ⟨S8x512x512, .f32⟩
  | .hbm, ⟨80, _⟩ => ⟨S8x512x32, .f32⟩
  | .hbm, ⟨81, _⟩ => ⟨S8x512x32, .f32⟩
  | .hbm, ⟨82, _⟩ => ⟨S1x1x32, .f32⟩
  | .hbm, ⟨83, _⟩ => ⟨S8x512x32, .f32⟩
  | .hbm, ⟨84, _⟩ => ⟨S8x512x32, .f32⟩
  | .hbm, ⟨85, _⟩ => ⟨S_, .f32⟩
  | .hbm, ⟨86, _⟩ => ⟨S8x512x32, .f32⟩
  | .hbm, ⟨87, _⟩ => ⟨S8x512x32, .f32⟩
  | .hbm, ⟨88, _⟩ => ⟨S_, .f32⟩
  | .hbm, ⟨89, _⟩ => ⟨S8x32, .f32⟩
  | .hbm, ⟨90, _⟩ => ⟨S8x2, .f32⟩
  | .hbm, ⟨91, _⟩ => ⟨S1x2, .f32⟩
  | .hbm, ⟨92, _⟩ => ⟨S8x2, .f32⟩
  | .hbm, ⟨93, _⟩ => ⟨S8x2, .f32⟩
  | _, _ => ⟨S8x1024x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_call1_v0 : Ref sig .tc := ⟨.hbm, 71, rfl⟩
abbrev main_call1_v1 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call2_cst : Ref sig .tc := ⟨.hbm, 85, rfl⟩
abbrev main_call2_v0 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  slices_S8x1024x129_S8x1024x1_0_0_128 : S8x1024x129.Slices ![0, 0, 128] S8x1024x1
  slices_S8x1024x129_S8x1024x128_0_0_0 : S8x1024x129.Slices ![0, 0, 0] S8x1024x128
  bcast_S32_S1x1x32_2 : S32.BroadcastsInDim S1x1x32 (![2] : Fin 1 → Fin S1x1x32.rank)
  bcast_S1x1x32_S8x1024x32_0_1_2 : S1x1x32.BroadcastsInDim S8x1024x32 (![0, 1, 2] : Fin 3 → Fin S8x1024x32.rank)
  bcast_S_S8x1024x32 : S_.BroadcastsInDim S8x1024x32 (![] : Fin 0 → Fin S8x1024x32.rank)
  bcast_S8x1024x1_S8x1024x32_0_1_2 : S8x1024x1.BroadcastsInDim S8x1024x32 (![0, 1, 2] : Fin 3 → Fin S8x1024x32.rank)
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  reducesTo_S8x1024x512_S8x1024_d2 : S8x1024x512.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x512_0_1_2 : S8x1024x1.BroadcastsInDim S8x1024x512 (![0, 1, 2] : Fin 3 → Fin S8x1024x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S8x512x512_0_1_2 : S1x512x512.BroadcastsInDim S8x512x512 (![0, 1, 2] : Fin 3 → Fin S8x512x512.rank)
  reducesTo_S8x512x512_S8x512_d2 : S8x512x512.ReducesTo [2] S8x512
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  bcast_S8x512_S8x1x512_0_2 : S8x512.BroadcastsInDim S8x1x512 (![0, 2] : Fin 2 → Fin S8x1x512.rank)
  bcast_S8x1x512_S8x512x512_0_1_2 : S8x1x512.BroadcastsInDim S8x512x512 (![0, 1, 2] : Fin 3 → Fin S8x512x512.rank)
  bcast_S1x1x32_S8x512x32_0_1_2 : S1x1x32.BroadcastsInDim S8x512x32 (![0, 1, 2] : Fin 3 → Fin S8x512x32.rank)
  bcast_S_S8x512x32 : S_.BroadcastsInDim S8x512x32 (![] : Fin 0 → Fin S8x512x32.rank)
  reducesTo_S8x512x32_S8x32_d1 : S8x512x32.ReducesTo [1] S8x32
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  dot_S8x1024x128_S128x32_S8x1024x32_2_0_01_1_n_n_wf : DotDims.WF S8x1024x128 S128x32 S8x1024x32 [2] [0] [0, 1] [1] [] []
  dot_S8x1024x1024_S8x1024x32_S8x1024x32_2_1_1_2_0_0_wf : DotDims.WF S8x1024x1024 S8x1024x32 S8x1024x32 [2] [1] [1] [2] [0] [0]
  dot_S8x1024x32_S32x512_S8x1024x512_2_0_01_1_n_n_wf : DotDims.WF S8x1024x32 S32x512 S8x1024x512 [2] [0] [0, 1] [1] [] []
  dot_S8x1024x512_S8x1024x32_S8x512x32_1_1_2_2_0_0_wf : DotDims.WF S8x1024x512 S8x1024x32 S8x512x32 [1] [1] [2] [2] [0] [0]
  dot_S8x1024x1024_S8x1024x512_S8x1024x512_2_1_1_2_0_0_wf : DotDims.WF S8x1024x1024 S8x1024x512 S8x1024x512 [2] [1] [1] [2] [0] [0]
  dot_S8x1024x512_S8x1024x512_S8x512x512_1_1_2_2_0_0_wf : DotDims.WF S8x1024x512 S8x1024x512 S8x512x512 [1] [1] [2] [2] [0] [0]
  dot_S8x512x32_S32x32_S8x512x32_2_0_01_1_n_n_wf : DotDims.WF S8x512x32 S32x32 S8x512x32 [2] [0] [0, 1] [1] [] []
  dot_S8x512x512_S8x512x32_S8x512x32_2_1_1_2_0_0_wf : DotDims.WF S8x512x512 S8x512x32 S8x512x32 [2] [1] [1] [2] [0] [0]
  dot_S8x32_S32x2_S8x2_1_0_0_1_n_n_wf : DotDims.WF S8x32 S32x2 S8x2 [1] [0] [0] [1] [] []

variable [Facts₀]

def dot_S8x1024x128_S128x32_S8x1024x32_2_0_01_1_n_n : DotDims S8x1024x128 S128x32 S8x1024x32 where
  lhsContracting := [2]
  rhsContracting := [0]
  lhsNonContracting := [0, 1]
  rhsNonContracting := [1]
  lhsBatch := []
  rhsBatch := []
  wf := dot_S8x1024x128_S128x32_S8x1024x32_2_0_01_1_n_n_wf
def dot_S8x1024x1024_S8x1024x32_S8x1024x32_2_1_1_2_0_0 : DotDims S8x1024x1024 S8x1024x32 S8x1024x32 where
  lhsContracting := [2]
  rhsContracting := [1]
  lhsNonContracting := [1]
  rhsNonContracting := [2]
  lhsBatch := [0]
  rhsBatch := [0]
  wf := dot_S8x1024x1024_S8x1024x32_S8x1024x32_2_1_1_2_0_0_wf
def dot_S8x1024x32_S32x512_S8x1024x512_2_0_01_1_n_n : DotDims S8x1024x32 S32x512 S8x1024x512 where
  lhsContracting := [2]
  rhsContracting := [0]
  lhsNonContracting := [0, 1]
  rhsNonContracting := [1]
  lhsBatch := []
  rhsBatch := []
  wf := dot_S8x1024x32_S32x512_S8x1024x512_2_0_01_1_n_n_wf
def dot_S8x1024x512_S8x1024x32_S8x512x32_1_1_2_2_0_0 : DotDims S8x1024x512 S8x1024x32 S8x512x32 where
  lhsContracting := [1]
  rhsContracting := [1]
  lhsNonContracting := [2]
  rhsNonContracting := [2]
  lhsBatch := [0]
  rhsBatch := [0]
  wf := dot_S8x1024x512_S8x1024x32_S8x512x32_1_1_2_2_0_0_wf
def dot_S8x1024x1024_S8x1024x512_S8x1024x512_2_1_1_2_0_0 : DotDims S8x1024x1024 S8x1024x512 S8x1024x512 where
  lhsContracting := [2]
  rhsContracting := [1]
  lhsNonContracting := [1]
  rhsNonContracting := [2]
  lhsBatch := [0]
  rhsBatch := [0]
  wf := dot_S8x1024x1024_S8x1024x512_S8x1024x512_2_1_1_2_0_0_wf
def dot_S8x1024x512_S8x1024x512_S8x512x512_1_1_2_2_0_0 : DotDims S8x1024x512 S8x1024x512 S8x512x512 where
  lhsContracting := [1]
  rhsContracting := [1]
  lhsNonContracting := [2]
  rhsNonContracting := [2]
  lhsBatch := [0]
  rhsBatch := [0]
  wf := dot_S8x1024x512_S8x1024x512_S8x512x512_1_1_2_2_0_0_wf
def dot_S8x512x32_S32x32_S8x512x32_2_0_01_1_n_n : DotDims S8x512x32 S32x32 S8x512x32 where
  lhsContracting := [2]
  rhsContracting := [0]
  lhsNonContracting := [0, 1]
  rhsNonContracting := [1]
  lhsBatch := []
  rhsBatch := []
  wf := dot_S8x512x32_S32x32_S8x512x32_2_0_01_1_n_n_wf
def dot_S8x512x512_S8x512x32_S8x512x32_2_1_1_2_0_0 : DotDims S8x512x512 S8x512x32 S8x512x32 where
  lhsContracting := [2]
  rhsContracting := [1]
  lhsNonContracting := [1]
  rhsNonContracting := [2]
  lhsBatch := [0]
  rhsBatch := [0]
  wf := dot_S8x512x512_S8x512x32_S8x512x32_2_1_1_2_0_0_wf
def dot_S8x32_S32x2_S8x2_1_0_0_1_n_n : DotDims S8x32 S32x2 S8x2 where
  lhsContracting := [1]
  rhsContracting := [0]
  lhsNonContracting := [0]
  rhsNonContracting := [1]
  lhsBatch := []
  rhsBatch := []
  wf := dot_S8x32_S32x2_S8x2_1_0_0_1_n_n_wf

class Facts : Prop extends Facts₀ where

variable [Facts]
-- ==== Proof.Spec.lean ====
/-
  One graph of the pooled network, as mathematics on the extended reals.

  A graph has 1024 node slots. Its feature array carries 128 features per node and, in the last column, the node
  mask. The network is: a graph convolution (features times W1, propagated by the adjacency A, plus b1, clamped
  below at 0, masked); a soft assignment of nodes to 512 clusters (a row softmax of a dense layer, masked); the pooled
  features Sᵀh and the pooled adjacency Sᵀ(A S) with its diagonal removed and symmetrically degree-normalised; a
  second graph convolution on the pooled graph; a sum over the clusters; a final dense layer.

  Every stage below is a function of literal `Fin` indices. Sums are plain finite sums, the row maximum is the fold
  of `max` from the value of the word `0xFF800000`, and the two float words that are not zero (`1.0` and the clamp
  `1e-12` of the degree) stay as `Ideal.ofBits` of their bit patterns: nothing here evaluates them.
-/
import Idealize.ShloMosaic.PureOps.Ideal
import Idealize.ShloMosaic.Lib.ValueIdx

noncomputable section

namespace Cert.PoolNet

open Idealize.ShloMosaic

/-- One graph's arrays: node features with the mask in column 128, the adjacency, and the shared weights. -/
structure Inputs where
  X : Fin 1024 → Fin 129 → EReal
  A : Fin 1024 → Fin 1024 → EReal
  W1 : Fin 128 → Fin 32 → EReal
  B1 : Fin 32 → EReal
  Ws : Fin 32 → Fin 512 → EReal
  Bs : Fin 512 → EReal
  W2 : Fin 32 → Fin 32 → EReal
  B2 : Fin 32 → EReal
  Wd : Fin 32 → Fin 2 → EReal
  Bd : Fin 2 → EReal

variable (g : Inputs)

/-- The float words the network uses besides zero. -/
abbrev negInfWord : EReal := Ideal.ofBits .f32 0xFF800000#32
abbrev oneWord : EReal := Ideal.ofBits .f32 0x3F800000#32
abbrev degFloorWord : EReal := Ideal.ofBits .f32 0x2B8CBCCC#32

/-- Node `i`'s mask: the last feature column. -/
def mask (i : Fin 1024) : EReal := g.X i ⟨128, by omega⟩

/-- Node `i`'s feature `f`: the first 128 columns. -/
def feat (i : Fin 1024) (f : Fin 128) : EReal := g.X i ⟨f.val, by omega⟩

/-- Features times the first weight matrix. -/
def proj (i : Fin 1024) (c : Fin 32) : EReal := ∑ f : Fin 128, feat g i f * g.W1 f c

/-- The first graph convolution: propagated, biased, clamped below at zero, masked. -/
def hid (i : Fin 1024) (c : Fin 32) : EReal :=
  max ((∑ m : Fin 1024, g.A i m * proj g m c) + g.B1 c) 0 * mask g i

/-- The assignment layer's logits. -/
def logit (i : Fin 1024) (k : Fin 512) : EReal := (∑ c : Fin 32, hid g i c * g.Ws c k) + g.Bs k

/-- A row's largest logit, folded from the value of the word for minus infinity. -/
def rowMax (i : Fin 1024) : EReal := (Finset.univ : Finset (Fin 512)).fold max negInfWord (fun k => logit g i k)

/-- The shifted exponentials of a row. -/
def expo (i : Fin 1024) (k : Fin 512) : EReal := Ideal.exp (logit g i k - rowMax g i)

/-- A row's normaliser. -/
def rowSum (i : Fin 1024) : EReal := ∑ k : Fin 512, expo g i k

/-- The masked soft assignment of node `i` to cluster `k`. -/
def assign (i : Fin 1024) (k : Fin 512) : EReal := Ideal.div (expo g i k) (rowSum g i) * mask g i

/-- Pooled features: the assignment transposed times the hidden features. -/
def pooledX (k : Fin 512) (c : Fin 32) : EReal := ∑ n : Fin 1024, assign g n k * hid g n c

/-! ## The pooled graph

From here on the network only sees the adjacency, the assignment, the pooled features and the remaining weights, so the
rest is stated over a record of exactly those. -/

/-- What the second half of the network reads. -/
structure Pooled where
  A : Fin 1024 → Fin 1024 → EReal
  S : Fin 1024 → Fin 512 → EReal
  XP : Fin 512 → Fin 32 → EReal
  W2 : Fin 32 → Fin 32 → EReal
  B2 : Fin 32 → EReal
  Wd : Fin 32 → Fin 2 → EReal
  Bd : Fin 2 → EReal

/-- The first half's results, handed to the second half. -/
def pooled : Pooled := ⟨g.A, assign g, pooledX g, g.W2, g.B2, g.Wd, g.Bd⟩

variable (p : Pooled)

/-- The adjacency times the assignment. -/
def spread (n : Fin 1024) (l : Fin 512) : EReal := ∑ m : Fin 1024, p.A n m * p.S m l

/-- Pooled adjacency: the assignment transposed times the spread. -/
def pooledA (k l : Fin 512) : EReal := ∑ n : Fin 1024, p.S n k * spread p n l

/-- The pooled adjacency with its diagonal removed. -/
def offDiag (k l : Fin 512) : EReal := if k = l then 0 else pooledA p k l

/-- A cluster's degree in the pooled graph. -/
def deg (k : Fin 512) : EReal := ∑ l : Fin 512, offDiag p k l

/-- One over the root of the degree clamped below, and zero where the degree is not positive. -/
def invRootDeg (k : Fin 512) : EReal :=
  Scalar.select (Ideal.cmp .ogt (deg p k) 0) (Ideal.div oneWord (Ideal.sqrt (max (deg p k) degFloorWord))) 0

/-- The symmetrically normalised pooled adjacency. -/
def normA (k l : Fin 512) : EReal := offDiag p k l * invRootDeg p k * invRootDeg p l

/-- Pooled features times the second weight matrix. -/
def proj2 (k : Fin 512) (d : Fin 32) : EReal := ∑ c : Fin 32, p.XP k c * p.W2 c d

/-- The second graph convolution, on the pooled graph. -/
def hid2 (k : Fin 512) (d : Fin 32) : EReal := max ((∑ l : Fin 512, normA p k l * proj2 p l d) + p.B2 d) 0

/-- The sum over clusters. -/
def readout (d : Fin 32) : EReal := ∑ k : Fin 512, hid2 p k d

/-- The final dense layer before its bias. -/
def dense (o : Fin 2) : EReal := ∑ d : Fin 32, readout p d * p.Wd d o

/-- The network's two outputs from the pooled graph. -/
def out (o : Fin 2) : EReal := dense p o + p.Bd o

/-- The whole network on one graph. -/
def result (o : Fin 2) : EReal := out (pooled g) o

end Cert.PoolNet

end
-- ==== Proof.SpecArrays.lean ====
/-
  The batch: eight graphs stacked along the leading axis of the feature and adjacency arrays, the weights shared.
  Graph `b` is cut out of the ten argument arrays, and the network's result on the batch has, at (b, o), output `o`
  of graph `b`.
-/
import proofs.«106139_g75806172774760_cont_9to1_m_1287_3_alg».proof.Proof.Spec

noncomputable section

namespace Cert.PoolNet

open Idealize.ShloMosaic Idealize.ShloMosaic.ValueIdx

/-- Graph `b` of the batch. -/
def graphOf (a0 : (⟨3, ![8, 1024, 129]⟩ : Shape).Idx → EReal) (a1 : (⟨3, ![8, 1024, 1024]⟩ : Shape).Idx → EReal)
    (a2 : (⟨2, ![128, 32]⟩ : Shape).Idx → EReal) (a3 : (⟨1, ![32]⟩ : Shape).Idx → EReal) (a4 : (⟨2, ![32, 512]⟩ : Shape).Idx → EReal)
    (a5 : (⟨1, ![512]⟩ : Shape).Idx → EReal) (a6 : (⟨2, ![32, 32]⟩ : Shape).Idx → EReal) (a7 : (⟨1, ![32]⟩ : Shape).Idx → EReal)
    (a8 : (⟨2, ![32, 2]⟩ : Shape).Idx → EReal) (a9 : (⟨1, ![2]⟩ : Shape).Idx → EReal) (b : Fin 8) : Inputs where
  X i f := a0 (ix3 b i f)
  A i m := a1 (ix3 b i m)
  W1 f c := a2 (ix2 f c)
  B1 c := a3 (ix1 c)
  Ws c k := a4 (ix2 c k)
  Bs k := a5 (ix1 k)
  W2 c d := a6 (ix2 c d)
  B2 d := a7 (ix1 d)
  Wd d o := a8 (ix2 d o)
  Bd o := a9 (ix1 o)

/-- The network on the whole batch. -/
def batchOut (a0 : (⟨3, ![8, 1024, 129]⟩ : Shape).Idx → EReal) (a1 : (⟨3, ![8, 1024, 1024]⟩ : Shape).Idx → EReal)
    (a2 : (⟨2, ![128, 32]⟩ : Shape).Idx → EReal) (a3 : (⟨1, ![32]⟩ : Shape).Idx → EReal) (a4 : (⟨2, ![32, 512]⟩ : Shape).Idx → EReal)
    (a5 : (⟨1, ![512]⟩ : Shape).Idx → EReal) (a6 : (⟨2, ![32, 32]⟩ : Shape).Idx → EReal) (a7 : (⟨1, ![32]⟩ : Shape).Idx → EReal)
    (a8 : (⟨2, ![32, 2]⟩ : Shape).Idx → EReal) (a9 : (⟨1, ![2]⟩ : Shape).Idx → EReal) : (⟨2, ![8, 2]⟩ : Shape).Idx → EReal :=
  fun j => result (graphOf a0 a1 a2 a3 a4 a5 a6 a7 a8 a9 (j 0)) (j 1)

theorem batchOut_apply (a0 : (⟨3, ![8, 1024, 129]⟩ : Shape).Idx → EReal) (a1 : (⟨3, ![8, 1024, 1024]⟩ : Shape).Idx → EReal)
    (a2 : (⟨2, ![128, 32]⟩ : Shape).Idx → EReal) (a3 : (⟨1, ![32]⟩ : Shape).Idx → EReal) (a4 : (⟨2, ![32, 512]⟩ : Shape).Idx → EReal)
    (a5 : (⟨1, ![512]⟩ : Shape).Idx → EReal) (a6 : (⟨2, ![32, 32]⟩ : Shape).Idx → EReal) (a7 : (⟨1, ![32]⟩ : Shape).Idx → EReal)
    (a8 : (⟨2, ![32, 2]⟩ : Shape).Idx → EReal) (a9 : (⟨1, ![2]⟩ : Shape).Idx → EReal) (b : Fin 8) (o : Fin 2) :
    batchOut a0 a1 a2 a3 a4 a5 a6 a7 a8 a9 (ix2 b o) = result (graphOf a0 a1 a2 a3 a4 a5 a6 a7 a8 a9 b) o := rfl

end Cert.PoolNet

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KerHid.lean ====
/-
  The first graph convolution of the kernel body, read at an index of one graph's blocks.
-/
import proofs.«106139_g75806172774760_cont_9to1_m_1287_3_alg».proof.Proof.Gen.KernelIdeal.Skeleton
import proofs.«106139_g75806172774760_cont_9to1_m_1287_3_alg».proof.Proof.Spec
import proofs.«106139_g75806172774760_cont_9to1_m_1287_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert

/-- The feature block with its leading unit axis dropped: row `i`, column `f` of the block. -/
theorem pay2_apply (v0 : Vec Ideal S1x1024x129 .f32) (i : Fin 1024) (f : Fin 129) :
    k0_pay2 (F := Ideal) v0 (ix2 i f) = v0 (ix3 (0 : Fin 1) i f) := by
  unfold k0_pay2
  exact shapeCast_1ab_ab_apply v0 _ i f

/-- The mask column the body slices off its feature block. -/
theorem pay3_apply (v0 : Vec Ideal S1x1024x129 .f32) (g : PoolNet.Inputs) (hX : ∀ (i : Fin 1024) (f : Fin 129), v0 (ix3 (0 : Fin 1) i f) = g.X i f) (i : Fin 1024) :
    k0_pay3 (F := Ideal) v0 (ix2 i (0 : Fin 1)) = PoolNet.mask g i := by
  unfold k0_pay3
  -- the slice starts at column 128 and is one column wide: its column 0 is the block's column 128
  refine (slice2_axis1_apply 128 (k0_pay2 (F := Ideal) v0) _ i (0 : Fin 1) (⟨128, by omega⟩ : Fin 129) rfl).trans ?_
  exact (pay2_apply v0 i _).trans (hX i _)

/-- The adjacency block with its leading unit axis dropped (the change of float format is the identity). -/
theorem pay4_apply (v2 : Vec Ideal S1x1024x1024 .f32) (n m : Fin 1024) :
    k0_pay4 (F := Ideal) v2 (ix2 n m) = v2 (ix3 (0 : Fin 1) n m) := by
  unfold k0_pay4
  exact shapeCast_1ab_ab_apply v2 _ n m

/-! ## The two products of the convolution, read at an index

Both contract the left operand's axis 1 with the right operand's axis 0. Each dot record's operand index at a result
index `j` and a contraction position `q` is read axis by axis: on the kept axis it is `j`'s coordinate, on the
contracted axis it is `q`'s one coordinate. -/

theorem lhs_dotW1_0 (j : S1024x32.Idx) (q : dot_S1024x128_S128x32_S1024x32_1_0_0_1_n_n.contr.Idx) :
    (dot_S1024x128_S128x32_S1024x32_1_0_0_1_n_n.lhsIdx j q 0).val = (j 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
theorem lhs_dotW1_1 (j : S1024x32.Idx) (q : dot_S1024x128_S128x32_S1024x32_1_0_0_1_n_n.contr.Idx) :
    (dot_S1024x128_S128x32_S1024x32_1_0_0_1_n_n.lhsIdx j q 1).val = (q ⟨0, by decide⟩).val :=
  dot_S1024x128_S128x32_S1024x32_1_0_0_1_n_n.lhsIdx_val_of_single rfl j q
theorem rhs_dotW1_0 (j : S1024x32.Idx) (q : dot_S1024x128_S128x32_S1024x32_1_0_0_1_n_n.contr.Idx) :
    (dot_S1024x128_S128x32_S1024x32_1_0_0_1_n_n.rhsIdx j q 0).val = (q ⟨0, by decide⟩).val :=
  dot_S1024x128_S128x32_S1024x32_1_0_0_1_n_n.rhsIdx_val_of_single rfl j q
theorem rhs_dotW1_1 (j : S1024x32.Idx) (q : dot_S1024x128_S128x32_S1024x32_1_0_0_1_n_n.contr.Idx) :
    (dot_S1024x128_S128x32_S1024x32_1_0_0_1_n_n.rhsIdx j q 1).val = (j 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

/-- Features times the first weight matrix, into the zero accumulator: entry `(m, c)` is the sum over the 128 features. -/
theorem matmulW1_apply (x : FVec Ideal S1024x128 .f32) (w : FVec Ideal S128x32 .f32) (m : Fin 1024) (c : Fin 32) :
    matmul dot_S1024x128_S128x32_S1024x32_1_0_0_1_n_n none x w (constant (F := Ideal) S1024x32 .f32 0x00000000#32) (ix2 m c)
      = ∑ f : Fin 128, x (ix2 m f) * w (ix2 f c) := by
  refine (Ideal.matmul_constant_zero_apply dot_S1024x128_S128x32_S1024x32_1_0_0_1_n_n none x w (ix2 m c)).trans ?_
  rw [← Equiv.sum_comp (contrEquiv1 dot_S1024x128_S128x32_S1024x32_1_0_0_1_n_n 128 rfl rfl).symm]
  refine Finset.sum_congr rfl fun k _ => ?_
  have hk := contrEquiv1_symm_val dot_S1024x128_S128x32_S1024x32_1_0_0_1_n_n 128 rfl rfl k
  have el : dot_S1024x128_S128x32_S1024x32_1_0_0_1_n_n.lhsIdx (ix2 m c) ((contrEquiv1 dot_S1024x128_S128x32_S1024x32_1_0_0_1_n_n 128 rfl rfl).symm k) = ix2 m k := funext fun a => Fin.ext (by
    match a with
    | ⟨0, _⟩ => exact lhs_dotW1_0 _ _
    | ⟨1, _⟩ => exact (lhs_dotW1_1 _ _).trans hk)
  have er : dot_S1024x128_S128x32_S1024x32_1_0_0_1_n_n.rhsIdx (ix2 m c) ((contrEquiv1 dot_S1024x128_S128x32_S1024x32_1_0_0_1_n_n 128 rfl rfl).symm k) = ix2 k c := funext fun a => Fin.ext (by
    match a with
    | ⟨0, _⟩ => exact (rhs_dotW1_0 _ _).trans hk
    | ⟨1, _⟩ => exact rhs_dotW1_1 _ _)
  rw [el, er]

theorem lhs_dotA_0 (j : S1024x32.Idx) (q : dot_S1024x1024_S1024x32_S1024x32_1_0_0_1_n_n.contr.Idx) :
    (dot_S1024x1024_S1024x32_S1024x32_1_0_0_1_n_n.lhsIdx j q 0).val = (j 0).val := by
  unfold DotDims.lhsIdx
  rw [dif_neg (show ¬(0 : Fin S1024x1024.rank) ∈ dot_S1024x1024_S1024x32_S1024x32_1_0_0_1_n_n.lhsBatch by decide), dif_pos (show (0 : Fin S1024x1024.rank) ∈ dot_S1024x1024_S1024x32_S1024x32_1_0_0_1_n_n.lhsNonContracting by decide)]
  rfl
theorem lhs_dotA_1 (j : S1024x32.Idx) (q : dot_S1024x1024_S1024x32_S1024x32_1_0_0_1_n_n.contr.Idx) :
    (dot_S1024x1024_S1024x32_S1024x32_1_0_0_1_n_n.lhsIdx j q 1).val = (q ⟨0, by decide⟩).val :=
  dot_S1024x1024_S1024x32_S1024x32_1_0_0_1_n_n.lhsIdx_val_of_single rfl j q
theorem rhs_dotA_0 (j : S1024x32.Idx) (q : dot_S1024x1024_S1024x32_S1024x32_1_0_0_1_n_n.contr.Idx) :
    (dot_S1024x1024_S1024x32_S1024x32_1_0_0_1_n_n.rhsIdx j q 0).val = (q ⟨0, by decide⟩).val :=
  dot_S1024x1024_S1024x32_S1024x32_1_0_0_1_n_n.rhsIdx_val_of_single rfl j q
theorem rhs_dotA_1 (j : S1024x32.Idx) (q : dot_S1024x1024_S1024x32_S1024x32_1_0_0_1_n_n.contr.Idx) :
    (dot_S1024x1024_S1024x32_S1024x32_1_0_0_1_n_n.rhsIdx j q 1).val = (j 1).val := by
  unfold DotDims.rhsIdx
  rw [dif_neg (show ¬(1 : Fin S1024x32.rank) ∈ dot_S1024x1024_S1024x32_S1024x32_1_0_0_1_n_n.rhsBatch by decide), dif_pos (show (1 : Fin S1024x32.rank) ∈ dot_S1024x1024_S1024x32_S1024x32_1_0_0_1_n_n.rhsNonContracting by decide)]
  rfl

/-- The adjacency times a 32-column array, into the zero accumulator: entry `(i, c)` is the sum over the 1024 nodes. -/
theorem matmulA_apply (x : FVec Ideal S1024x1024 .bf16) (y : FVec Ideal S1024x32 .bf16) (i : Fin 1024) (c : Fin 32) :
    matmul dot_S1024x1024_S1024x32_S1024x32_1_0_0_1_n_n none x y (constant (F := Ideal) S1024x32 .f32 0x00000000#32) (ix2 i c)
      = ∑ m : Fin 1024, x (ix2 i m) * y (ix2 m c) := by
  refine (Ideal.matmul_constant_zero_apply dot_S1024x1024_S1024x32_S1024x32_1_0_0_1_n_n none x y (ix2 i c)).trans ?_
  rw [← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 i c) ((contrEquiv1 dot_S1024x1024_S1024x32_S1024x32_1_0_0_1_n_n 1024 rfl rfl).symm k) = ix2 i k := funext fun a => Fin.ext (by
    match a with
    | ⟨0, _⟩ => exact lhs_dotA_0 _ _
    | ⟨1, _⟩ => exact (lhs_dotA_1 _ _).trans hk)
  have er : dot_S1024x1024_S1024x32_S1024x32_1_0_0_1_n_n.rhsIdx (ix2 i c) ((contrEquiv1 dot_S1024x1024_S1024x32_S1024x32_1_0_0_1_n_n 1024 rfl rfl).symm k) = ix2 k c := funext fun a => Fin.ext (by
    match a with
    | ⟨0, _⟩ => exact (rhs_dotA_0 _ _).trans hk
    | ⟨1, _⟩ => exact rhs_dotA_1 _ _)
  rw [el, er]

/-- The body's first product, read at `(m, c)`, is the network's projection of node `m`'s features: the slice keeps the
    first 128 columns of the block, so its column `f` is the block's column `f`. -/
theorem proj_apply (v0 : Vec Ideal S1x1024x129 .f32) (v7 : Vec Ideal S128x32 .f32) (g : PoolNet.Inputs)
    (hX : ∀ (i : Fin 1024) (f : Fin 129), v0 (ix3 (0 : Fin 1) i f) = g.X i f)
    (hW1 : ∀ (f : Fin 128) (c : Fin 32), v7 (ix2 f c) = g.W1 f c) (m : Fin 1024) (c : Fin 32) :
    matmul (φ₁ := .f32) (φ₂ := .f32) dot_S1024x128_S128x32_S1024x32_1_0_0_1_n_n none
        (extractStridedSlice S1024x128 ![0, 0] (k0_pay2 (F := Ideal) v0) Facts₀.slices_S1024x129_o0_0_S1024x128) v7
        (constant (F := Ideal) S1024x32 .f32 0x00000000#32) (ix2 m c)
      = PoolNet.proj g m c := by
  refine (matmulW1_apply _ v7 m c).trans ?_
  unfold PoolNet.proj PoolNet.feat
  refine Finset.sum_congr rfl fun f _ => ?_
  refine congrArg₂ (· * ·) ?_ (hW1 f c)
  refine (slice2_axis1_apply 0 (k0_pay2 (F := Ideal) v0) _ m f (⟨f.val, by omega⟩ : Fin 129) (Nat.zero_add _).symm).trans ?_
  exact (pay2_apply v0 m _).trans (hX m _)

/-- The body's hidden features are the first graph convolution of the graph its blocks hold. -/
theorem pay5_apply (v0 : Vec Ideal S1x1024x129 .f32) (v2 : Vec Ideal S1x1024x1024 .f32) (v7 : Vec Ideal S128x32 .f32) (v11 : Vec Ideal S1x32 .f32) (g : PoolNet.Inputs)
    (hX : ∀ (i : Fin 1024) (f : Fin 129), v0 (ix3 (0 : Fin 1) i f) = g.X i f) (hA : ∀ (i m : Fin 1024), v2 (ix3 (0 : Fin 1) i m) = g.A i m)
    (hW1 : ∀ (f : Fin 128) (c : Fin 32), v7 (ix2 f c) = g.W1 f c) (hB1 : ∀ c : Fin 32, v11 (ix2 (0 : Fin 1) c) = g.B1 c) (i : Fin 1024) (c : Fin 32) :
    k0_pay5 (F := Ideal) v0 v2 v7 v11 (ix2 i c) = PoolNet.hid g i c := by
  unfold k0_pay5 PoolNet.hid
  -- the product with the mask, then the clamp, then the sum of the propagated projection and the bias
  refine (mulf_apply _ _ _).trans (congrArg₂ (· * ·) ?_ ?_)
  · refine (maximumf_apply _ _ _).trans (congrArg₂ max ?_ Ideal.ofBits_zero_f32)
    refine (addf_apply _ _ _).trans (congrArg₂ (· + ·) ?_ ?_)
    · -- the adjacency times the projection
      refine (matmulA_apply _ _ i c).trans (Finset.sum_congr rfl fun m _ => ?_)
      exact congrArg₂ (· * ·) ((pay4_apply v2 i m).trans (hA i m)) (proj_apply v0 v7 g hX hW1 m c)
    · -- the bias row, broadcast down the rows
      refine (broadcastTo_1b_ab_apply _ _ i c).trans ?_
      rw [shapeCast_self]
      exact hB1 c
  · -- the mask column, broadcast across the columns
    exact (Keepdims.broadcastTo_a1_ab_apply _ _ i c).trans (pay3_apply v0 g hX i)

end Cert.KernelIdeal.Val

end
-- ==== Proof.KerAssign.lean ====
/-
  The masked row softmax of the kernel body, read at an index.
-/
import proofs.«106139_g75806172774760_cont_9to1_m_1287_3_alg».proof.Proof.KerHid

noncomputable section

namespace Cert.KernelIdeal.Val

open Idealize.ShloMosaic Idealize.ShloMosaic.ValueIdx Cert.KernelIdeal Cert.KernelIdeal.Gen Cert

/-! ## The dense layer's contraction: hidden features times the assignment weights

The operand indices of the [1024, 32] × [32, 512] product at an output index and a contraction index, one axis at a
time: the left operand is read at (row, shared), the right one at (shared, column). -/

theorem lhs_logit_0 (j : S1024x512.Idx) (q : dot_S1024x32_S32x512_S1024x512_1_0_0_1_n_n.contr.Idx) :
    (dot_S1024x32_S32x512_S1024x512_1_0_0_1_n_n.lhsIdx j q 0).val = (j 0).val := by
  unfold DotDims.lhsIdx
  rw [dif_neg (show ¬(0 : Fin S1024x32.rank) ∈ dot_S1024x32_S32x512_S1024x512_1_0_0_1_n_n.lhsBatch by decide), dif_pos (show (0 : Fin S1024x32.rank) ∈ dot_S1024x32_S32x512_S1024x512_1_0_0_1_n_n.lhsNonContracting by decide)]
  rfl
theorem lhs_logit_1 (j : S1024x512.Idx) (q : dot_S1024x32_S32x512_S1024x512_1_0_0_1_n_n.contr.Idx) :
    (dot_S1024x32_S32x512_S1024x512_1_0_0_1_n_n.lhsIdx j q 1).val = (q ⟨0, by decide⟩).val :=
  dot_S1024x32_S32x512_S1024x512_1_0_0_1_n_n.lhsIdx_val_of_single rfl j q
theorem rhs_logit_0 (j : S1024x512.Idx) (q : dot_S1024x32_S32x512_S1024x512_1_0_0_1_n_n.contr.Idx) :
    (dot_S1024x32_S32x512_S1024x512_1_0_0_1_n_n.rhsIdx j q 0).val = (q ⟨0, by decide⟩).val :=
  dot_S1024x32_S32x512_S1024x512_1_0_0_1_n_n.rhsIdx_val_of_single rfl j q
theorem rhs_logit_1 (j : S1024x512.Idx) (q : dot_S1024x32_S32x512_S1024x512_1_0_0_1_n_n.contr.Idx) :
    (dot_S1024x32_S32x512_S1024x512_1_0_0_1_n_n.rhsIdx j q 1).val = (j 1).val := by
  unfold DotDims.rhsIdx
  rw [dif_neg (show ¬(1 : Fin S32x512.rank) ∈ dot_S1024x32_S32x512_S1024x512_1_0_0_1_n_n.rhsBatch by decide), dif_pos (show (1 : Fin S32x512.rank) ∈ dot_S1024x32_S32x512_S1024x512_1_0_0_1_n_n.rhsNonContracting by decide)]
  rfl

/-- The product of a [1024, 32] array with a [32, 512] one into a zero accumulator, at (i, k): the sum over the 32
    shared coordinates. -/
theorem logitMatmul_apply (x : FVec Ideal S1024x32 .f32) (w : FVec Ideal S32x512 .f32) (i : Fin 1024) (k : Fin 512) :
    matmul dot_S1024x32_S32x512_S1024x512_1_0_0_1_n_n none x w (constant (F := Ideal) S1024x512 .f32 0x00000000#32) (ix2 i k)
      = ∑ c : Fin 32, x (ix2 i c) * w (ix2 c k) := by
  simp only [matmul]
  rw [Ideal.matmul_constant_zero_apply, ← Equiv.sum_comp (contrEquiv1 dot_S1024x32_S32x512_S1024x512_1_0_0_1_n_n 32 rfl rfl).symm]
  refine Finset.sum_congr rfl fun c _ => ?_
  have hk := contrEquiv1_symm_val dot_S1024x32_S32x512_S1024x512_1_0_0_1_n_n 32 rfl rfl c
  have el : dot_S1024x32_S32x512_S1024x512_1_0_0_1_n_n.lhsIdx (ix2 i k) ((contrEquiv1 dot_S1024x32_S32x512_S1024x512_1_0_0_1_n_n 32 rfl rfl).symm c) = ix2 i c := funext fun a => Fin.ext (by
    match a with
    | ⟨0, _⟩ => exact lhs_logit_0 _ _
    | ⟨1, _⟩ => exact (lhs_logit_1 _ _).trans hk)
  have er : dot_S1024x32_S32x512_S1024x512_1_0_0_1_n_n.rhsIdx (ix2 i k) ((contrEquiv1 dot_S1024x32_S32x512_S1024x512_1_0_0_1_n_n 32 rfl rfl).symm c) = ix2 c k := funext fun a => Fin.ext (by
    match a with
    | ⟨0, _⟩ => exact (rhs_logit_0 _ _).trans hk
    | ⟨1, _⟩ => exact rhs_logit_1 _ _)
  rw [el, er]

/-- The body's logits: the hidden features times the assignment weights, plus the bias row spread over the nodes. -/
def bodyLogits (v0 : Vec Ideal S1x1024x129 .f32) (v2 : Vec Ideal S1x1024x1024 .f32) (v7 : Vec Ideal S128x32 .f32) (v11 : Vec Ideal S1x32 .f32) (v19 : Vec Ideal S32x512 .f32) (v21 : Vec Ideal S1x512 .f32) : FVec Ideal S1024x512 .f32 :=
  addf (matmul (φ₁ := .f32) (φ₂ := .f32) dot_S1024x32_S32x512_S1024x512_1_0_0_1_n_n none (k0_pay5 (F := Ideal) v0 v2 v7 v11) v19 (constant (F := Ideal) S1024x512 .f32 0x00000000#32))
    (broadcastTo S1024x512 (shapeCast S1x512 v21 shapeCasts_S1x512_S1x512) broadcasts_S1x512_S1024x512)

/-- The body's logits at (i, k) are the assignment layer's logits of the graph its blocks hold. -/
theorem bodyLogits_apply (v0 : Vec Ideal S1x1024x129 .f32) (v2 : Vec Ideal S1x1024x1024 .f32) (v7 : Vec Ideal S128x32 .f32) (v11 : Vec Ideal S1x32 .f32) (v19 : Vec Ideal S32x512 .f32) (v21 : Vec Ideal S1x512 .f32) (g : PoolNet.Inputs)
    (hX : ∀ (i : Fin 1024) (f : Fin 129), v0 (ix3 (0 : Fin 1) i f) = g.X i f) (hA : ∀ (i m : Fin 1024), v2 (ix3 (0 : Fin 1) i m) = g.A i m)
    (hW1 : ∀ (f : Fin 128) (c : Fin 32), v7 (ix2 f c) = g.W1 f c) (hB1 : ∀ c : Fin 32, v11 (ix2 (0 : Fin 1) c) = g.B1 c)
    (hWs : ∀ (c : Fin 32) (k : Fin 512), v19 (ix2 c k) = g.Ws c k) (hBs : ∀ k : Fin 512, v21 (ix2 (0 : Fin 1) k) = g.Bs k) (i : Fin 1024) (k : Fin 512) :
    bodyLogits v0 v2 v7 v11 v19 v21 (ix2 i k) = PoolNet.logit g i k := by
  unfold bodyLogits PoolNet.logit
  refine (addf_apply _ _ _).trans ?_
  refine congrArg₂ (· + ·) ?_ ?_
  · refine (logitMatmul_apply _ v19 i k).trans ?_
    exact Finset.sum_congr rfl fun c _ => by rw [pay5_apply v0 v2 v7 v11 g hX hA hW1 hB1 i c, hWs c k]
  · refine (broadcastTo_1b_ab_apply _ broadcasts_S1x512_S1024x512 i k).trans ?_
    rw [shapeCast_self]
    exact hBs k

/-! ## A row's maximum and a row's sum, kept as a column and spread back over the row -/

/-- The maximum over the second axis of a [1024, 512] array, at row i: the fold of max over the row from the
    accumulator's value. -/
theorem rowMaxRed_apply (z : FVec Ideal S1024x512 .f32) (h : S1024x512.Reduces [1] S1024) (hφ : FKind.Formats .f32)
    (hacc : (0xFF800000#32 : BitVec 32) = FKind.maximumf.neutral .f32 hφ) (i : Fin 1024) :
    multiReduction (F := Ideal) .maximumf [1] S1024 z 0xFF800000#32 h hφ hacc (ix1 i)
      = (Finset.univ : Finset (Fin 512)).fold max (Ideal.ofBits .f32 0xFF800000#32) (fun k => z (ix2 i k)) := by
  refine (Ideal.multiReduction_maximumf_single z 0xFF800000#32 h hφ hacc (ix1 i)).trans ?_
  have e : (z ∘ h.lift (ix1 i)) = fun k : Fin 512 => z (ix2 i k) := funext fun k => congrArg z (funext fun a => Fin.ext (by
    match a with
    | ⟨0, _⟩ => rfl
    | ⟨1, _⟩ => rfl))
  rw [e]
  rfl

/-- The sum over the second axis of a [1024, 512] array, at row i. -/
theorem rowSumRed_apply (e : FVec Ideal S1024x512 .f32) (h : S1024x512.Reduces [1] S1024) (hφ : FKind.Formats .f32)
    (hacc : (0x00000000#32 : BitVec 32) = FKind.add.neutral .f32 hφ) (i : Fin 1024) :
    multiReduction (F := Ideal) .add [1] S1024 e 0x00000000#32 h hφ hacc (ix1 i) = ∑ k : Fin 512, e (ix2 i k) := by
  refine (Ideal.multiReduction_add_single e 0x00000000#32 h hφ hacc (ix1 i)).trans ?_
  refine Finset.sum_congr rfl fun k _ => congrArg e (funext fun a => Fin.ext (by
    match a with
    | ⟨0, _⟩ => rfl
    | ⟨1, _⟩ => rfl))

/-- A per-row value kept as a [1024, 1] column and spread to [1024, 512] reads, at (i, k), the value of row i. -/
theorem spreadRow_apply (r : FVec Ideal S1024 .f32) (hc : S1024.ShapeCasts S1024x1) (hb : S1024x1.Broadcasts S1024x512)
    (i : Fin 1024) (k : Fin 512) : broadcastTo S1024x512 (shapeCast S1024x1 r hc) hb (ix2 i k) = r (ix1 i) :=
  (Keepdims.broadcastTo_a1_ab_apply _ hb i k).trans (Keepdims.shapeCast_a_a1_apply r hc i (0 : Fin 1))

/-! ## The masked row softmax as a function of the logits and the mask column -/

/-- The body's softmax: each row shifted by its maximum, exponentiated, divided by the row's sum, and masked. -/
def bodySoftmax (z : FVec Ideal S1024x512 .f32) (m : FVec Ideal S1024x1 .f32) : FVec Ideal S1024x512 .f32 :=
  have v25 : FVec Ideal S1024 .f32 := multiReduction (F := Ideal) .maximumf [1] S1024 z 0xFF800000#32 reduces_S1024x512_S1024 (.inl rfl) rfl
  have v27 : FVec Ideal S1024x512 .f32 := broadcastTo S1024x512 (shapeCast S1024x1 v25 shapeCasts_S1024_S1024x1) broadcasts_S1024x1_S1024x512
  have v29 : FVec Ideal S1024x512 .f32 := exp (subf z v27)
  have v30 : FVec Ideal S1024 .f32 := multiReduction (F := Ideal) .add [1] S1024 v29 0x00000000#32 reduces_S1024x512_S1024 (.inl rfl) rfl
  have v32 : FVec Ideal S1024x512 .f32 := broadcastTo S1024x512 (shapeCast S1024x1 v30 shapeCasts_S1024_S1024x1) broadcasts_S1024x1_S1024x512
  mulf (divf v29 v32) (broadcastTo S1024x512 m broadcasts_S1024x1_S1024x512)

/-- The body's softmax at (i, k), for logits that read Z and a mask column that reads M: the shifted exponential over
    the row's sum of them, times the row's mask. -/
theorem bodySoftmax_apply (z : FVec Ideal S1024x512 .f32) (m : FVec Ideal S1024x1 .f32)
    (Z : Fin 1024 → Fin 512 → EReal) (hz : ∀ (i : Fin 1024) (k : Fin 512), z (ix2 i k) = Z i k)
    (M : Fin 1024 → EReal) (hm : ∀ i : Fin 1024, m (ix2 i (0 : Fin 1)) = M i) (i : Fin 1024) (k : Fin 512) :
    bodySoftmax z m (ix2 i k)
      = Ideal.div (Ideal.exp (Z i k - (Finset.univ : Finset (Fin 512)).fold max (Ideal.ofBits .f32 0xFF800000#32) (fun k' => Z i k')))
          (∑ l : Fin 512, Ideal.exp (Z i l - (Finset.univ : Finset (Fin 512)).fold max (Ideal.ofBits .f32 0xFF800000#32) (fun k' => Z i k')))
        * M i := by
  have hrow : (fun k' : Fin 512 => z (ix2 i k')) = fun k' => Z i k' := funext fun k' => hz i k'
  -- the row maximum spread back, at any column of row i
  have hmax : ∀ l : Fin 512,
      broadcastTo S1024x512 (shapeCast S1024x1 (multiReduction (F := Ideal) .maximumf [1] S1024 z 0xFF800000#32 reduces_S1024x512_S1024 (.inl rfl) rfl) shapeCasts_S1024_S1024x1) broadcasts_S1024x1_S1024x512 (ix2 i l)
        = (Finset.univ : Finset (Fin 512)).fold max (Ideal.ofBits .f32 0xFF800000#32) (fun k' => Z i k') := fun l =>
    (spreadRow_apply _ shapeCasts_S1024_S1024x1 broadcasts_S1024x1_S1024x512 i l).trans
      ((rowMaxRed_apply z reduces_S1024x512_S1024 (.inl rfl) rfl i).trans
        (congrArg (fun f : Fin 512 → EReal => (Finset.univ : Finset (Fin 512)).fold max (Ideal.ofBits .f32 0xFF800000#32) f) hrow))
  -- the shifted exponential, at any column of row i
  have hexp : ∀ l : Fin 512,
      exp (subf z (broadcastTo S1024x512 (shapeCast S1024x1 (multiReduction (F := Ideal) .maximumf [1] S1024 z 0xFF800000#32 reduces_S1024x512_S1024 (.inl rfl) rfl) shapeCasts_S1024_S1024x1) broadcasts_S1024x1_S1024x512)) (ix2 i l)
        = Ideal.exp (Z i l - (Finset.univ : Finset (Fin 512)).fold max (Ideal.ofBits .f32 0xFF800000#32) (fun k' => Z i k')) := fun l =>
    congrArg Ideal.exp (congrArg₂ (· - ·) (hz i l) (hmax l))
  unfold bodySoftmax
  refine (mulf_apply _ _ _).trans (congrArg₂ (· * ·) ((divf_apply _ _ _).trans (congrArg₂ Ideal.div (hexp k) ?_)) ?_)
  · refine (spreadRow_apply _ shapeCasts_S1024_S1024x1 broadcasts_S1024x1_S1024x512 i k).trans ?_
    refine (rowSumRed_apply _ reduces_S1024x512_S1024 (.inl rfl) rfl i).trans ?_
    exact Finset.sum_congr rfl fun l _ => hexp l
  · exact (Keepdims.broadcastTo_a1_ab_apply m broadcasts_S1024x1_S1024x512 i k).trans (hm i)

/-- The body's assignment matrix is its softmax of its logits and its mask column. -/
theorem pay6_eq (v0 : Vec Ideal S1x1024x129 .f32) (v2 : Vec Ideal S1x1024x1024 .f32) (v7 : Vec Ideal S128x32 .f32) (v11 : Vec Ideal S1x32 .f32) (v19 : Vec Ideal S32x512 .f32) (v21 : Vec Ideal S1x512 .f32) :
    k0_pay6 (F := Ideal) v0 v2 v7 v11 v19 v21 = bodySoftmax (bodyLogits v0 v2 v7 v11 v19 v21) (k0_pay3 (F := Ideal) v0) := rfl

/-- The body's assignment matrix is the masked soft assignment of the graph its blocks hold. -/
theorem pay6_apply (v0 : Vec Ideal S1x1024x129 .f32) (v2 : Vec Ideal S1x1024x1024 .f32) (v7 : Vec Ideal S128x32 .f32) (v11 : Vec Ideal S1x32 .f32) (v19 : Vec Ideal S32x512 .f32) (v21 : Vec Ideal S1x512 .f32) (g : PoolNet.Inputs)
    (hX : ∀ (i : Fin 1024) (f : Fin 129), v0 (ix3 (0 : Fin 1) i f) = g.X i f) (hA : ∀ (i m : Fin 1024), v2 (ix3 (0 : Fin 1) i m) = g.A i m)
    (hW1 : ∀ (f : Fin 128) (c : Fin 32), v7 (ix2 f c) = g.W1 f c) (hB1 : ∀ c : Fin 32, v11 (ix2 (0 : Fin 1) c) = g.B1 c)
    (hWs : ∀ (c : Fin 32) (k : Fin 512), v19 (ix2 c k) = g.Ws c k) (hBs : ∀ k : Fin 512, v21 (ix2 (0 : Fin 1) k) = g.Bs k) (i : Fin 1024) (k : Fin 512) :
    k0_pay6 (F := Ideal) v0 v2 v7 v11 v19 v21 (ix2 i k) = PoolNet.assign g i k := by
  rw [pay6_eq]
  exact bodySoftmax_apply _ _ (PoolNet.logit g) (bodyLogits_apply v0 v2 v7 v11 v19 v21 g hX hA hW1 hB1 hWs hBs)
    (PoolNet.mask g) (pay3_apply v0 g hX) i k

/-- The same after the change of float format, which is the identity on the extended reals. -/
theorem pay7_apply (v0 : Vec Ideal S1x1024x129 .f32) (v2 : Vec Ideal S1x1024x1024 .f32) (v7 : Vec Ideal S128x32 .f32) (v11 : Vec Ideal S1x32 .f32) (v19 : Vec Ideal S32x512 .f32) (v21 : Vec Ideal S1x512 .f32) (g : PoolNet.Inputs)
    (hX : ∀ (i : Fin 1024) (f : Fin 129), v0 (ix3 (0 : Fin 1) i f) = g.X i f) (hA : ∀ (i m : Fin 1024), v2 (ix3 (0 : Fin 1) i m) = g.A i m)
    (hW1 : ∀ (f : Fin 128) (c : Fin 32), v7 (ix2 f c) = g.W1 f c) (hB1 : ∀ c : Fin 32, v11 (ix2 (0 : Fin 1) c) = g.B1 c)
    (hWs : ∀ (c : Fin 32) (k : Fin 512), v19 (ix2 c k) = g.Ws c k) (hBs : ∀ k : Fin 512, v21 (ix2 (0 : Fin 1) k) = g.Bs k) (i : Fin 1024) (k : Fin 512) :
    k0_pay7 (F := Ideal) v0 v2 v7 v11 v19 v21 (ix2 i k) = PoolNet.assign g i k := by
  unfold k0_pay7
  exact (truncf_apply (φ := .f32) (ψ := .bf16) (k0_pay6 (F := Ideal) v0 v2 v7 v11 v19 v21) bitsLt_bf16_f32 (ix2 i k)).trans
    (pay6_apply v0 v2 v7 v11 v19 v21 g hX hA hW1 hB1 hWs hBs i k)

end Cert.KernelIdeal.Val

end
-- ==== Proof.KerPoolX.lean ====
/-
  The pooled features of the kernel body: the assignment transposed times the hidden features, read at an index.
-/
import proofs.«106139_g75806172774760_cont_9to1_m_1287_3_alg».proof.Proof.KerAssign

noncomputable section

namespace Cert.KernelIdeal.Val

open Idealize.ShloMosaic Idealize.ShloMosaic.ValueIdx Cert.KernelIdeal Cert.KernelIdeal.Gen Cert

/-! ## The contraction over the node axis, read at an index

The product contracts axis 0 of both operands (the 1024 nodes); the left operand's axis 1 is the result's axis 0 and the
right operand's axis 1 is the result's axis 1. -/

theorem lhs_pay8_0 (i : S512x32.Idx) (q : dot_S1024x512_S1024x32_S512x32_0_0_1_1_n_n.contr.Idx) :
    (dot_S1024x512_S1024x32_S512x32_0_0_1_1_n_n.lhsIdx i q 0).val = (q ⟨0, by decide⟩).val :=
  dot_S1024x512_S1024x32_S512x32_0_0_1_1_n_n.lhsIdx_val_of_single rfl i q
theorem lhs_pay8_1 (i : S512x32.Idx) (q : dot_S1024x512_S1024x32_S512x32_0_0_1_1_n_n.contr.Idx) :
    (dot_S1024x512_S1024x32_S512x32_0_0_1_1_n_n.lhsIdx i q 1).val = (i 0).val := by
  unfold DotDims.lhsIdx
  rw [dif_neg (show ¬(1 : Fin S1024x512.rank) ∈ dot_S1024x512_S1024x32_S512x32_0_0_1_1_n_n.lhsBatch by decide), dif_pos (show (1 : Fin S1024x512.rank) ∈ dot_S1024x512_S1024x32_S512x32_0_0_1_1_n_n.lhsNonContracting by decide)]
  rfl
theorem rhs_pay8_0 (i : S512x32.Idx) (q : dot_S1024x512_S1024x32_S512x32_0_0_1_1_n_n.contr.Idx) :
    (dot_S1024x512_S1024x32_S512x32_0_0_1_1_n_n.rhsIdx i q 0).val = (q ⟨0, by decide⟩).val :=
  dot_S1024x512_S1024x32_S512x32_0_0_1_1_n_n.rhsIdx_val_of_single rfl i q
theorem rhs_pay8_1 (i : S512x32.Idx) (q : dot_S1024x512_S1024x32_S512x32_0_0_1_1_n_n.contr.Idx) :
    (dot_S1024x512_S1024x32_S512x32_0_0_1_1_n_n.rhsIdx i q 1).val = (i 1).val := by
  unfold DotDims.rhsIdx
  rw [dif_neg (show ¬(1 : Fin S1024x32.rank) ∈ dot_S1024x512_S1024x32_S512x32_0_0_1_1_n_n.rhsBatch by decide), dif_pos (show (1 : Fin S1024x32.rank) ∈ dot_S1024x512_S1024x32_S512x32_0_0_1_1_n_n.rhsNonContracting by decide)]
  rfl

/-- The transposed product into the zero accumulator, at cluster `k` and feature `c`: the sum over the nodes. -/
theorem matmul_nodes_apply (L : FVec Ideal S1024x512 .f32) (R : FVec Ideal S1024x32 .f32) (k : Fin 512) (c : Fin 32) :
    matmul dot_S1024x512_S1024x32_S512x32_0_0_1_1_n_n none L R (constant (F := Ideal) S512x32 .f32 0x00000000#32) (ix2 k c)
      = ∑ n : Fin 1024, L (ix2 n k) * R (ix2 n c) := by
  refine (Ideal.matmul_constant_zero_apply dot_S1024x512_S1024x32_S512x32_0_0_1_1_n_n none L R (ix2 k c)).trans ?_
  rw [← Equiv.sum_comp (ValueIdx.contrEquiv1 dot_S1024x512_S1024x32_S512x32_0_0_1_1_n_n 1024 rfl rfl).symm]
  refine Finset.sum_congr rfl fun n _ => ?_
  have hk := ValueIdx.contrEquiv1_symm_val dot_S1024x512_S1024x32_S512x32_0_0_1_1_n_n 1024 rfl rfl n
  have el : dot_S1024x512_S1024x32_S512x32_0_0_1_1_n_n.lhsIdx (ix2 k c) ((ValueIdx.contrEquiv1 dot_S1024x512_S1024x32_S512x32_0_0_1_1_n_n 1024 rfl rfl).symm n) = ix2 n k := funext fun a => Fin.ext (by
    match a with
    | ⟨0, _⟩ => exact (lhs_pay8_0 _ _).trans hk
    | ⟨1, _⟩ => exact lhs_pay8_1 _ _)
  have er : dot_S1024x512_S1024x32_S512x32_0_0_1_1_n_n.rhsIdx (ix2 k c) ((ValueIdx.contrEquiv1 dot_S1024x512_S1024x32_S512x32_0_0_1_1_n_n 1024 rfl rfl).symm n) = ix2 n c := funext fun a => Fin.ext (by
    match a with
    | ⟨0, _⟩ => exact (rhs_pay8_0 _ _).trans hk
    | ⟨1, _⟩ => exact rhs_pay8_1 _ _)
  rw [el, er]

theorem pay8_apply (v0 : Vec Ideal S1x1024x129 .f32) (v2 : Vec Ideal S1x1024x1024 .f32) (v7 : Vec Ideal S128x32 .f32) (v11 : Vec Ideal S1x32 .f32) (v19 : Vec Ideal S32x512 .f32) (v21 : Vec Ideal S1x512 .f32) (g : PoolNet.Inputs)
    (hX : ∀ (i : Fin 1024) (f : Fin 129), v0 (ix3 (0 : Fin 1) i f) = g.X i f) (hA : ∀ (i m : Fin 1024), v2 (ix3 (0 : Fin 1) i m) = g.A i m)
    (hW1 : ∀ (f : Fin 128) (c : Fin 32), v7 (ix2 f c) = g.W1 f c) (hB1 : ∀ c : Fin 32, v11 (ix2 (0 : Fin 1) c) = g.B1 c)
    (hWs : ∀ (c : Fin 32) (k : Fin 512), v19 (ix2 c k) = g.Ws c k) (hBs : ∀ k : Fin 512, v21 (ix2 (0 : Fin 1) k) = g.Bs k) (k : Fin 512) (c : Fin 32) :
    k0_pay8 (F := Ideal) v0 v2 v7 v11 v19 v21 (ix2 k c) = PoolNet.pooledX g k c := by
  -- the pooled feature is the sum over the nodes of the assignment times the hidden feature
  refine (matmul_nodes_apply (k0_pay6 (F := Ideal) v0 v2 v7 v11 v19 v21) (k0_pay5 (F := Ideal) v0 v2 v7 v11) k c).trans ?_
  unfold PoolNet.pooledX
  refine Finset.sum_congr rfl fun n _ => ?_
  rw [pay6_apply v0 v2 v7 v11 v19 v21 g hX hA hW1 hB1 hWs hBs n k, pay5_apply v0 v2 v7 v11 g hX hA hW1 hB1 n c]

end Cert.KernelIdeal.Val

end
-- ==== Proof.KerCut.lean ====
/-
  The second half of the kernel body, cut in two at the normalised pooled adjacency.

  The body's payload for the dense product is one long chain of operations. Its first stretch computes, from the
  adjacency and the assignment, the pooled adjacency with the diagonal removed and degree-normalised on both sides; its
  second stretch takes that matrix, the pooled features and the remaining weights to the dense product. Naming the two
  stretches lets each be read at an index on its own; their composition is the payload itself.
-/
import proofs.«106139_g75806172774760_cont_9to1_m_1287_3_alg».proof.Proof.Gen.KernelIdeal.Skeleton

noncomputable section

namespace Cert.KernelIdeal.Val

open Idealize.ShloMosaic Idealize.SL.Sem Cert.KernelIdeal Cert.KernelIdeal.Gen

variable {F : FTy → Type} [FloatOps F]

/-- From the adjacency and the assignment to the normalised pooled adjacency. -/
noncomputable def pay9_norm (v6 : FVec F S1024x1024 .bf16) (v36 : FVec F S1024x512 .bf16) : FVec F S512x512 .f32 :=
  have cst_19 : FVec F S1024x512 .f32 := constant S1024x512 .f32 0x00000000#32
  have v38 : FVec F S1024x512 .f32 := matmul dot_S1024x1024_S1024x512_S1024x512_1_0_0_1_n_n none v6 v36 cst_19
  have v39 : FVec F S1024x512 .bf16 := truncf .bf16 v38 bitsLt_bf16_f32
  have cst_20 : FVec F S512x512 .f32 := constant S512x512 .f32 0x00000000#32
  have v40 : FVec F S512x512 .f32 := matmul dot_S1024x512_S1024x512_S512x512_0_0_1_1_n_n none v36 v39 cst_20
  have v41 : IVec S512x512 32 := iota .tc S512x512 32 [0] iota_S512x512_d0_w32
  have v42 : IVec S512x512 32 := iota .tc S512x512 32 [1] iota_S512x512_d1_w32
  have v43 : IVec S512x512 1 := cmpi .eq v41 v42
  have cst_21 : F .f32 := Scalar.ofBits .f32 0x00000000#32
  have v44 : FVec F S512x512 .f32 := broadcast S512x512 cst_21
  have v45 : FVec F S512x512 .f32 := select v43 v44 v40
  have v46 : FVec F S512 .f32 := multiReduction .add [1] S512 v45 0x00000000#32 reduces_S512x512_S512 (.inl rfl) rfl
  have v47 : FVec F S512x1 .f32 := shapeCast S512x1 v46 shapeCasts_S512_S512x1
  have cst_23 : F .f32 := Scalar.ofBits .f32 0x00000000#32
  have v48 : FVec F S512x1 .f32 := broadcast S512x1 cst_23
  have v49 : IVec S512x1 1 := cmpf .ogt v47 v48
  have cst_24 : F .f32 := Scalar.ofBits .f32 0x2B8CBCCC#32
  have v50 : FVec F S512x1 .f32 := broadcast S512x1 cst_24
  have v51 : FVec F S512x1 .f32 := maximumf v47 v50
  have v52 : FVec F S512x1 .f32 := sqrt v51
  have cst_25 : F .f32 := Scalar.ofBits .f32 0x3F800000#32
  have v53 : FVec F S512x1 .f32 := broadcast S512x1 cst_25
  have v54 : FVec F S512x1 .f32 := divf v53 v52
  have cst_26 : F .f32 := Scalar.ofBits .f32 0x00000000#32
  have v55 : FVec F S512x1 .f32 := broadcast S512x1 cst_26
  have v56 : FVec F S512x1 .f32 := select v49 v54 v55
  have v57 : FVec F S512x512 .f32 := broadcastTo S512x512 v56 broadcasts_S512x1_S512x512
  have v58 : FVec F S512x512 .f32 := mulf v45 v57
  have v59 : FVec F S1x512 .f32 := shapeCast S1x512 v56 shapeCasts_S512x1_S1x512
  have v60 : FVec F S512x512 .f32 := broadcastTo S512x512 v59 broadcasts_S1x512_S512x512
  have v61 : FVec F S512x512 .f32 := mulf v58 v60
  v61

/-- From the normalised pooled adjacency, the pooled features and the remaining weights to the dense product. -/
noncomputable def pay9_rest (v61 : FVec F S512x512 .f32) (v37 : FVec F S512x32 .f32) (v62 : Vec F S32x32 .f32) (v65 : Vec F S1x32 .f32) (v73 : Vec F S32x2 .f32) : FVec F S1x2 .f32 :=
  have cst_29 : FVec F S512x32 .f32 := constant S512x32 .f32 0x00000000#32
  have v63 : FVec F S512x32 .f32 := matmul dot_S512x32_S32x32_S512x32_1_0_0_1_n_n none v37 v62 cst_29
  have cst_30 : FVec F S512x32 .f32 := constant S512x32 .f32 0x00000000#32
  have v64 : FVec F S512x32 .f32 := matmul dot_S512x512_S512x32_S512x32_1_0_0_1_n_n none v61 v63 cst_30
  have v66 : FVec F S1x32 .f32 := shapeCast S1x32 v65 shapeCasts_S1x32_S1x32
  have v67 : FVec F S512x32 .f32 := broadcastTo S512x32 v66 broadcasts_S1x32_S512x32
  have v68 : FVec F S512x32 .f32 := addf v64 v67
  have cst_33 : F .f32 := Scalar.ofBits .f32 0x00000000#32
  have v69 : FVec F S512x32 .f32 := broadcast S512x32 cst_33
  have v70 : FVec F S512x32 .f32 := maximumf v68 v69
  have v71 : FVec F S32 .f32 := multiReduction .add [0] S32 v70 0x00000000#32 reduces_S512x32_S32 (.inl rfl) rfl
  have v72 : FVec F S1x32 .f32 := shapeCast S1x32 v71 shapeCasts_S32_S1x32
  have cst_37 : FVec F S1x2 .f32 := constant S1x2 .f32 0x00000000#32
  have v74 : FVec F S1x2 .f32 := matmul dot_S1x32_S32x2_S1x2_1_0_0_1_n_n none v72 v73 cst_37
  v74

/-- The payload is the second stretch applied to the first. -/
theorem pay9_cut (v6 : FVec F S1024x1024 .bf16) (v36 : FVec F S1024x512 .bf16) (v37 : FVec F S512x32 .f32) (v62 : Vec F S32x32 .f32) (v65 : Vec F S1x32 .f32) (v73 : Vec F S32x2 .f32) :
    k0_pay9 v6 v36 v37 v62 v65 v73 = pay9_rest (pay9_norm v6 v36) v37 v62 v65 v73 := rfl

end Cert.KernelIdeal.Val

end
-- ==== Proof.KerNorm.lean ====
/-
  The pooled adjacency of the kernel body — the assignment transposed times the adjacency times the assignment, its
  diagonal removed, degree-normalised on both sides — read at an index.
-/
import proofs.«106139_g75806172774760_cont_9to1_m_1287_3_alg».proof.Proof.KerCut
import proofs.«106139_g75806172774760_cont_9to1_m_1287_3_alg».proof.Proof.Spec
import proofs.«106139_g75806172774760_cont_9to1_m_1287_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert

/-! ## The two products at an index -/

/-- Adjacency times assignment: the left operand's row coordinate is the result's. -/
theorem lhs_spread_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- … and its column coordinate is the summation index. -/
theorem lhs_spread_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- The right operand's row coordinate is the summation index. -/
theorem rhs_spread_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- … and its column coordinate is the result's. -/
theorem rhs_spread_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a [1024,1024] array with a [1024,512] array into zero, at (n, l): the sum over m of a(n,m)·s(m,l). -/
theorem spread_matmul_apply (a : FVec Ideal S1024x1024 .bf16) (s : FVec Ideal S1024x512 .bf16) (n : Fin 1024) (l : Fin 512) :
    matmul dot_S1024x1024_S1024x512_S1024x512_1_0_0_1_n_n none a s (constant (F := Ideal) S1024x512 .f32 0x00000000#32) (ix2 n l)
      = ∑ m : Fin 1024, a (ix2 n m) * s (ix2 m l) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun m _ => ?_
  have hk := ValueIdx.contrEquiv1_symm_val dot_S1024x1024_S1024x512_S1024x512_1_0_0_1_n_n 1024 rfl rfl m
  have el : dot_S1024x1024_S1024x512_S1024x512_1_0_0_1_n_n.lhsIdx (ix2 n l) ((ValueIdx.contrEquiv1 dot_S1024x1024_S1024x512_S1024x512_1_0_0_1_n_n 1024 rfl rfl).symm m) = ix2 n m := funext fun ax => Fin.ext (by
    match ax with
    | ⟨0, _⟩ => exact lhs_spread_0 _ _
    | ⟨1, _⟩ => exact (lhs_spread_1 _ _).trans hk)
  have er : dot_S1024x1024_S1024x512_S1024x512_1_0_0_1_n_n.rhsIdx (ix2 n l) ((ValueIdx.contrEquiv1 dot_S1024x1024_S1024x512_S1024x512_1_0_0_1_n_n 1024 rfl rfl).symm m) = ix2 m l := funext fun ax => Fin.ext (by
    match ax with
    | ⟨0, _⟩ => exact (rhs_spread_0 _ _).trans hk
    | ⟨1, _⟩ => exact rhs_spread_1 _ _)
  rw [el, er]

/-- Assignment transposed times the spread: the left operand's row coordinate is the summation index. -/
theorem lhs_pool_0 (i : S512x512.Idx) (q : dot_S1024x512_S1024x512_S512x512_0_0_1_1_n_n.contr.Idx) :
    (dot_S1024x512_S1024x512_S512x512_0_0_1_1_n_n.lhsIdx i q 0).val = (q ⟨0, by decide⟩).val :=
  dot_S1024x512_S1024x512_S512x512_0_0_1_1_n_n.lhsIdx_val_of_single rfl i q
/-- … and its column coordinate is the result's row. -/
theorem lhs_pool_1 (i : S512x512.Idx) (q : dot_S1024x512_S1024x512_S512x512_0_0_1_1_n_n.contr.Idx) :
    (dot_S1024x512_S1024x512_S512x512_0_0_1_1_n_n.lhsIdx i q 1).val = (i 0).val := by
  unfold DotDims.lhsIdx
  rw [dif_neg (show ¬(1 : Fin S1024x512.rank) ∈ dot_S1024x512_S1024x512_S512x512_0_0_1_1_n_n.lhsBatch by decide), dif_pos (show (1 : Fin S1024x512.rank) ∈ dot_S1024x512_S1024x512_S512x512_0_0_1_1_n_n.lhsNonContracting by decide)]
  rfl
/-- The right operand's row coordinate is the summation index. -/
theorem rhs_pool_0 (i : S512x512.Idx) (q : dot_S1024x512_S1024x512_S512x512_0_0_1_1_n_n.contr.Idx) :
    (dot_S1024x512_S1024x512_S512x512_0_0_1_1_n_n.rhsIdx i q 0).val = (q ⟨0, by decide⟩).val :=
  dot_S1024x512_S1024x512_S512x512_0_0_1_1_n_n.rhsIdx_val_of_single rfl i q
/-- … and its column coordinate is the result's column. -/
theorem rhs_pool_1 (i : S512x512.Idx) (q : dot_S1024x512_S1024x512_S512x512_0_0_1_1_n_n.contr.Idx) :
    (dot_S1024x512_S1024x512_S512x512_0_0_1_1_n_n.rhsIdx i q 1).val = (i 1).val := by
  unfold DotDims.rhsIdx
  rw [dif_neg (show ¬(1 : Fin S1024x512.rank) ∈ dot_S1024x512_S1024x512_S512x512_0_0_1_1_n_n.rhsBatch by decide), dif_pos (show (1 : Fin S1024x512.rank) ∈ dot_S1024x512_S1024x512_S512x512_0_0_1_1_n_n.rhsNonContracting by decide)]
  rfl

/-- The product contracting the first axis of two [1024,512] arrays into zero, at (k, l): the sum over n of s(n,k)·t(n,l). -/
theorem pool_matmul_apply (s t : FVec Ideal S1024x512 .bf16) (k l : Fin 512) :
    matmul dot_S1024x512_S1024x512_S512x512_0_0_1_1_n_n none s t (constant (F := Ideal) S512x512 .f32 0x00000000#32) (ix2 k l)
      = ∑ n : Fin 1024, s (ix2 n k) * t (ix2 n l) := by
  simp only [matmul]
  rw [Ideal.matmul_constant_zero_apply, ← Equiv.sum_comp (ValueIdx.contrEquiv1 dot_S1024x512_S1024x512_S512x512_0_0_1_1_n_n 1024 rfl rfl).symm]
  refine Finset.sum_congr rfl fun n _ => ?_
  have hk := ValueIdx.contrEquiv1_symm_val dot_S1024x512_S1024x512_S512x512_0_0_1_1_n_n 1024 rfl rfl n
  have el : dot_S1024x512_S1024x512_S512x512_0_0_1_1_n_n.lhsIdx (ix2 k l) ((ValueIdx.contrEquiv1 dot_S1024x512_S1024x512_S512x512_0_0_1_1_n_n 1024 rfl rfl).symm n) = ix2 n k := funext fun ax => Fin.ext (by
    match ax with
    | ⟨0, _⟩ => exact (lhs_pool_0 _ _).trans hk
    | ⟨1, _⟩ => exact lhs_pool_1 _ _)
  have er : dot_S1024x512_S1024x512_S512x512_0_0_1_1_n_n.rhsIdx (ix2 k l) ((ValueIdx.contrEquiv1 dot_S1024x512_S1024x512_S512x512_0_0_1_1_n_n 1024 rfl rfl).symm n) = ix2 n l := funext fun ax => Fin.ext (by
    match ax with
    | ⟨0, _⟩ => exact (rhs_pool_0 _ _).trans hk
    | ⟨1, _⟩ => exact rhs_pool_1 _ _)
  rw [el, er]

/-! ## The diagonal removed -/

/-- Two row or column numbers below 2^32 are equal as 32-bit words exactly when they are equal. -/
theorem ofNat32_eq_iff (k l : Fin 512) : BitVec.ofNat 32 k.val = BitVec.ofNat 32 l.val ↔ k = l := by
  constructor
  · intro h
    have h' := congrArg BitVec.toNat h
    rw [BitVec.toNat_ofNat, BitVec.toNat_ofNat] at h'
    have hk := k.isLt
    have hl := l.isLt
    rw [Nat.mod_eq_of_lt (by omega), Nat.mod_eq_of_lt (by omega)] at h'
    exact Fin.ext h'
  · intro h
    rw [h]

/-- The select of zero on the diagonal over an array, at (k, l). -/
theorem offdiag_apply (x : FVec Ideal S512x512 .f32) (k l : Fin 512) :
    select (cmpi .eq (iota .tc S512x512 32 [0] iota_S512x512_d0_w32) (iota .tc S512x512 32 [1] iota_S512x512_d1_w32))
        (broadcast S512x512 (Scalar.ofBits (F := Ideal) .f32 0x00000000#32)) x (ix2 k l)
      = if k = l then 0 else x (ix2 k l) := by
  rw [select_apply, broadcast_apply]
  show Scalar.select (IntOp.cmpi .eq (iota .tc S512x512 32 [0] iota_S512x512_d0_w32 (ix2 k l)) (iota .tc S512x512 32 [1] iota_S512x512_d1_w32 (ix2 k l)))
      (Ideal.ofBits .f32 0x00000000#32) (x (ix2 k l)) = _
  rw [iota_single_apply, iota_single_apply, Ideal.ofBits_zero_f32]
  show Scalar.select (IntOp.cmpi .eq (BitVec.ofNat 32 k.val) (BitVec.ofNat 32 l.val)) 0 (x (ix2 k l)) = _
  by_cases h : k = l
  · rw [if_pos h, (IntOp.cmpi_eq).mpr ((ofNat32_eq_iff k l).mpr h), select_one]
  · rw [if_neg h, eq_zero_of_ne_one (fun hc => h ((ofNat32_eq_iff k l).mp ((IntOp.cmpi_eq).mp hc))), select_zero]

/-! ## The row sum -/

/-- The sum along the second axis of a [512,512] array, at k. -/
theorem rowsum_apply (x : FVec Ideal S512x512 .f32) (hφ : FKind.Formats .f32)
    (hacc : (0x00000000#32 : BitVec 32) = FKind.add.neutral .f32 hφ) (k : Fin 512) :
    multiReduction .add [1] S512 x 0x00000000#32 reduces_S512x512_S512 hφ hacc (ix1 k) = ∑ l : Fin 512, x (ix2 k l) := by
  refine (Ideal.multiReduction_add_single x 0x00000000#32 reduces_S512x512_S512 hφ hacc (ix1 k)).trans ?_
  refine Finset.sum_congr rfl fun l _ => ?_
  refine congrArg x (funext fun ax => Fin.ext ?_)
  match ax with
  | ⟨0, _⟩ => rfl
  | ⟨1, _⟩ => rfl

/-! ## One over the root of the clamped degree, as a column -/

/-- The column of inverse roots from a vector of degrees, at (k, u). -/
theorem invroot_apply (d : FVec Ideal S512 .f32) (k : Fin 512) (u : Fin 1) :
    select (cmpf .ogt (shapeCast S512x1 d shapeCasts_S512_S512x1) (broadcast S512x1 (Scalar.ofBits (F := Ideal) .f32 0x00000000#32)))
        (divf (broadcast S512x1 (Scalar.ofBits (F := Ideal) .f32 0x3F800000#32))
          (sqrt (maximumf (shapeCast S512x1 d shapeCasts_S512_S512x1) (broadcast S512x1 (Scalar.ofBits (F := Ideal) .f32 0x2B8CBCCC#32)))))
        (broadcast S512x1 (Scalar.ofBits (F := Ideal) .f32 0x00000000#32)) (ix2 k u)
      = Scalar.select (Ideal.cmp .ogt (d (ix1 k)) 0)
          (Ideal.div PoolNet.oneWord (Ideal.sqrt (max (d (ix1 k)) PoolNet.degFloorWord))) 0 := by
  show Scalar.select (Ideal.cmp .ogt (shapeCast S512x1 d shapeCasts_S512_S512x1 (ix2 k u)) (Ideal.ofBits .f32 0x00000000#32))
      (Ideal.div (Ideal.ofBits .f32 0x3F800000#32)
        (Ideal.sqrt (max (shapeCast S512x1 d shapeCasts_S512_S512x1 (ix2 k u)) (Ideal.ofBits .f32 0x2B8CBCCC#32))))
      (Ideal.ofBits .f32 0x00000000#32) = _
  rw [Keepdims.shapeCast_a_a1_apply d shapeCasts_S512_S512x1 k u, Ideal.ofBits_zero_f32]

/-! ## The column laid out as a row -/

/-- An `[a, 1]` array cast to `[1, a]` reads, at `(z, l)`, the operand at `(l, 0)`: both sit at position `l`. -/
theorem shapeCast_a1_1a_apply {α : Type} {a : ℕ} (x : (⟨2, ![a, 1]⟩ : Shape).Idx → α)
    (h : (⟨2, ![a, 1]⟩ : Shape).ShapeCasts ⟨2, ![1, a]⟩) (z : Fin 1) (l : Fin a) :
    shapeCast ⟨2, ![1, a]⟩ x h (ix2 z l) = x (ix2 l (0 : Fin 1)) :=
  shapeCast_apply x h _ _ (by
    have hz : z.val = 0 := by omega
    rw [Shape.rowMajor_val_two, Shape.rowMajor_val_two]
    show l.val * 1 + 0 = z.val * a + l.val
    rw [hz]
    omega)

/-! ## The stages of the payload, named -/

/-- The adjacency times the assignment, in the operand format of the next product. -/
def nSpread (v6 : FVec Ideal S1024x1024 .bf16) (v36 : FVec Ideal S1024x512 .bf16) : FVec Ideal S1024x512 .bf16 :=
  truncf .bf16 (matmul dot_S1024x1024_S1024x512_S1024x512_1_0_0_1_n_n none v6 v36 (constant (F := Ideal) S1024x512 .f32 0x00000000#32)) bitsLt_bf16_f32

/-- The pooled adjacency with zero on its diagonal. -/
def nOff (v6 : FVec Ideal S1024x1024 .bf16) (v36 : FVec Ideal S1024x512 .bf16) : FVec Ideal S512x512 .f32 :=
  select (cmpi .eq (iota .tc S512x512 32 [0] iota_S512x512_d0_w32) (iota .tc S512x512 32 [1] iota_S512x512_d1_w32))
    (broadcast S512x512 (Scalar.ofBits (F := Ideal) .f32 0x00000000#32))
    (matmul dot_S1024x512_S1024x512_S512x512_0_0_1_1_n_n none v36 (nSpread v6 v36) (constant (F := Ideal) S512x512 .f32 0x00000000#32))

/-- Its row sums. -/
def nDeg (v6 : FVec Ideal S1024x1024 .bf16) (v36 : FVec Ideal S1024x512 .bf16) : FVec Ideal S512 .f32 :=
  multiReduction .add [1] S512 (nOff v6 v36) 0x00000000#32 reduces_S512x512_S512 (.inl rfl) rfl

/-- The column of inverse roots of the clamped row sums. -/
def nInv (v6 : FVec Ideal S1024x1024 .bf16) (v36 : FVec Ideal S1024x512 .bf16) : FVec Ideal S512x1 .f32 :=
  select (cmpf .ogt (shapeCast S512x1 (nDeg v6 v36) shapeCasts_S512_S512x1) (broadcast S512x1 (Scalar.ofBits (F := Ideal) .f32 0x00000000#32)))
    (divf (broadcast S512x1 (Scalar.ofBits (F := Ideal) .f32 0x3F800000#32))
      (sqrt (maximumf (shapeCast S512x1 (nDeg v6 v36) shapeCasts_S512_S512x1) (broadcast S512x1 (Scalar.ofBits (F := Ideal) .f32 0x2B8CBCCC#32)))))
    (broadcast S512x1 (Scalar.ofBits (F := Ideal) .f32 0x00000000#32))

/-- The payload is the off-diagonal matrix scaled by the column on the rows and by the same column, laid out as a row, on
    the columns. -/
theorem pay9_norm_eq (v6 : FVec Ideal S1024x1024 .bf16) (v36 : FVec Ideal S1024x512 .bf16) :
    pay9_norm (F := Ideal) v6 v36
      = mulf (mulf (nOff v6 v36) (broadcastTo S512x512 (nInv v6 v36) broadcasts_S512x1_S512x512))
          (broadcastTo S512x512 (shapeCast S1x512 (nInv v6 v36) shapeCasts_S512x1_S1x512) broadcasts_S1x512_S512x512) := rfl

section Stages

variable (v6 : FVec Ideal S1024x1024 .bf16) (v36 : FVec Ideal S1024x512 .bf16) (p : PoolNet.Pooled)
  (hA : ∀ (n m : Fin 1024), v6 (ix2 n m) = p.A n m) (hS : ∀ (n : Fin 1024) (k : Fin 512), v36 (ix2 n k) = p.S n k)

include hA hS

theorem nSpread_apply (n : Fin 1024) (l : Fin 512) : nSpread v6 v36 (ix2 n l) = PoolNet.spread p n l := by
  show matmul dot_S1024x1024_S1024x512_S1024x512_1_0_0_1_n_n none v6 v36 (constant (F := Ideal) S1024x512 .f32 0x00000000#32) (ix2 n l) = _
  refine (spread_matmul_apply v6 v36 n l).trans ?_
  unfold PoolNet.spread
  exact Finset.sum_congr rfl fun m _ => by rw [hA n m, hS m l]

theorem nOff_apply (k l : Fin 512) : nOff v6 v36 (ix2 k l) = PoolNet.offDiag p k l := by
  unfold nOff
  refine (offdiag_apply _ k l).trans ?_
  unfold PoolNet.offDiag
  by_cases h : k = l
  · rw [if_pos h, if_pos h]
  · rw [if_neg h, if_neg h]
    refine (pool_matmul_apply v36 (nSpread v6 v36) k l).trans ?_
    unfold PoolNet.pooledA
    exact Finset.sum_congr rfl fun n _ => by rw [hS n k, nSpread_apply v6 v36 p hA hS n l]

theorem nDeg_apply (k : Fin 512) : nDeg v6 v36 (ix1 k) = PoolNet.deg p k := by
  unfold nDeg
  refine (rowsum_apply (nOff v6 v36) (.inl rfl) rfl k).trans ?_
  unfold PoolNet.deg
  exact Finset.sum_congr rfl fun l _ => nOff_apply v6 v36 p hA hS k l

theorem nInv_apply (k : Fin 512) (u : Fin 1) : nInv v6 v36 (ix2 k u) = PoolNet.invRootDeg p k := by
  unfold nInv
  refine (invroot_apply (nDeg v6 v36) k u).trans ?_
  unfold PoolNet.invRootDeg
  rw [nDeg_apply v6 v36 p hA hS k]

end Stages

theorem pay9_norm_apply (v6 : FVec Ideal S1024x1024 .bf16) (v36 : FVec Ideal S1024x512 .bf16) (p : PoolNet.Pooled)
    (hA : ∀ (n m : Fin 1024), v6 (ix2 n m) = p.A n m) (hS : ∀ (n : Fin 1024) (k : Fin 512), v36 (ix2 n k) = p.S n k)
    (k l : Fin 512) :
    pay9_norm (F := Ideal) v6 v36 (ix2 k l) = PoolNet.normA p k l := by
  rw [pay9_norm_eq, mulf_apply, mulf_apply,
    Keepdims.broadcastTo_a1_ab_apply (nInv v6 v36) broadcasts_S512x1_S512x512 k l,
    broadcastTo_1b_ab_apply (shapeCast S1x512 (nInv v6 v36) shapeCasts_S512x1_S1x512) broadcasts_S1x512_S512x512 k l,
    shapeCast_a1_1a_apply (nInv v6 v36) shapeCasts_S512x1_S1x512 (0 : Fin 1) l,
    nOff_apply v6 v36 p hA hS k l, nInv_apply v6 v36 p hA hS k 0, nInv_apply v6 v36 p hA hS l 0]
  rfl

end Cert.KernelIdeal.Val

end
-- ==== Proof.KerOut.lean ====
/-
  The second graph convolution, the sum over clusters and the dense product of the kernel body, read at an index; and the
  bias add with its change of shape.
-/
import proofs.«106139_g75806172774760_cont_9to1_m_1287_3_alg».proof.Proof.KerCut
import proofs.«106139_g75806172774760_cont_9to1_m_1287_3_alg».proof.Proof.Spec
import proofs.«106139_g75806172774760_cont_9to1_m_1287_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert

/-! ### Pooled features times the second weight matrix: a [512,32] by [32,32] product -/

theorem lhs_proj2_0 (i : S512x32.Idx) (q : dot_S512x32_S32x32_S512x32_1_0_0_1_n_n.contr.Idx) :
    (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
  rfl
theorem lhs_proj2_1 (i : S512x32.Idx) (q : dot_S512x32_S32x32_S512x32_1_0_0_1_n_n.contr.Idx) :
    (dot_S512x32_S32x32_S512x32_1_0_0_1_n_n.lhsIdx i q 1).val = (q ⟨0, by decide⟩).val :=
  dot_S512x32_S32x32_S512x32_1_0_0_1_n_n.lhsIdx_val_of_single rfl i q
theorem rhs_proj2_0 (i : S512x32.Idx) (q : dot_S512x32_S32x32_S512x32_1_0_0_1_n_n.contr.Idx) :
    (dot_S512x32_S32x32_S512x32_1_0_0_1_n_n.rhsIdx i q 0).val = (q ⟨0, by decide⟩).val :=
  dot_S512x32_S32x32_S512x32_1_0_0_1_n_n.rhsIdx_val_of_single rfl i q
theorem rhs_proj2_1 (i : S512x32.Idx) (q : dot_S512x32_S32x32_S512x32_1_0_0_1_n_n.contr.Idx) :
    (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
  rfl

/-- The product into the zero splat, at row `r` and column `c`: the sum over the contracted coordinate of the left operand's
    row `r` times the right operand's column `c`. -/
theorem matmul_proj2_apply (x : FVec Ideal S512x32 .f32) (w : FVec Ideal S32x32 .f32) (r : Fin 512) (c : Fin 32) :
    matmul dot_S512x32_S32x32_S512x32_1_0_0_1_n_n none x w (constant (F := Ideal) S512x32 .f32 0x00000000#32) (ix2 r c)
      = ∑ k : Fin 32, x (ix2 r k) * w (ix2 k c) := by
  refine (Ideal.matmul_constant_zero_apply dot_S512x32_S32x32_S512x32_1_0_0_1_n_n none x w (ix2 r c)).trans ?_
  rw [← Equiv.sum_comp (contrEquiv1 dot_S512x32_S32x32_S512x32_1_0_0_1_n_n 32 rfl rfl).symm]
  refine Finset.sum_congr rfl fun k _ => ?_
  have hk := contrEquiv1_symm_val dot_S512x32_S32x32_S512x32_1_0_0_1_n_n 32 rfl rfl k
  have el : dot_S512x32_S32x32_S512x32_1_0_0_1_n_n.lhsIdx (ix2 r c) ((contrEquiv1 dot_S512x32_S32x32_S512x32_1_0_0_1_n_n 32 rfl rfl).symm k) = ix2 r k := funext fun a => Fin.ext (by
    match a with
    | ⟨0, _⟩ => exact lhs_proj2_0 _ _
    | ⟨1, _⟩ => exact (lhs_proj2_1 _ _).trans hk)
  have er : dot_S512x32_S32x32_S512x32_1_0_0_1_n_n.rhsIdx (ix2 r c) ((contrEquiv1 dot_S512x32_S32x32_S512x32_1_0_0_1_n_n 32 rfl rfl).symm k) = ix2 k c := funext fun a => Fin.ext (by
    match a with
    | ⟨0, _⟩ => exact (rhs_proj2_0 _ _).trans hk
    | ⟨1, _⟩ => exact rhs_proj2_1 _ _)
  rw [el, er]

/-! ### The normalised pooled adjacency times that product: a [512,512] by [512,32] product -/

theorem lhs_hid2_0 (i : S512x32.Idx) (q : dot_S512x512_S512x32_S512x32_1_0_0_1_n_n.contr.Idx) :
    (dot_S512x512_S512x32_S512x32_1_0_0_1_n_n.lhsIdx i q 0).val = (i 0).val := by
  unfold DotDims.lhsIdx
  rw [dif_neg (show ¬(0 : Fin S512x512.rank) ∈ dot_S512x512_S512x32_S512x32_1_0_0_1_n_n.lhsBatch by decide), dif_pos (show (0 : Fin S512x512.rank) ∈ dot_S512x512_S512x32_S512x32_1_0_0_1_n_n.lhsNonContracting by decide)]
  rfl
theorem lhs_hid2_1 (i : S512x32.Idx) (q : dot_S512x512_S512x32_S512x32_1_0_0_1_n_n.contr.Idx) :
    (dot_S512x512_S512x32_S512x32_1_0_0_1_n_n.lhsIdx i q 1).val = (q ⟨0, by decide⟩).val :=
  dot_S512x512_S512x32_S512x32_1_0_0_1_n_n.lhsIdx_val_of_single rfl i q
theorem rhs_hid2_0 (i : S512x32.Idx) (q : dot_S512x512_S512x32_S512x32_1_0_0_1_n_n.contr.Idx) :
    (dot_S512x512_S512x32_S512x32_1_0_0_1_n_n.rhsIdx i q 0).val = (q ⟨0, by decide⟩).val :=
  dot_S512x512_S512x32_S512x32_1_0_0_1_n_n.rhsIdx_val_of_single rfl i q
theorem rhs_hid2_1 (i : S512x32.Idx) (q : dot_S512x512_S512x32_S512x32_1_0_0_1_n_n.contr.Idx) :
    (dot_S512x512_S512x32_S512x32_1_0_0_1_n_n.rhsIdx i q 1).val = (i 1).val := by
  unfold DotDims.rhsIdx
  rw [dif_neg (show ¬(1 : Fin S512x32.rank) ∈ dot_S512x512_S512x32_S512x32_1_0_0_1_n_n.rhsBatch by decide), dif_pos (show (1 : Fin S512x32.rank) ∈ dot_S512x512_S512x32_S512x32_1_0_0_1_n_n.rhsNonContracting by decide)]
  rfl

/-- The product into the zero splat, at row `r` and column `c`: the sum over the contracted coordinate of the left operand's
    row `r` times the right operand's column `c`. -/
theorem matmul_hid2_apply (x : FVec Ideal S512x512 .f32) (w : FVec Ideal S512x32 .f32) (r : Fin 512) (c : Fin 32) :
    matmul dot_S512x512_S512x32_S512x32_1_0_0_1_n_n none x w (constant (F := Ideal) S512x32 .f32 0x00000000#32) (ix2 r c)
      = ∑ k : Fin 512, x (ix2 r k) * w (ix2 k c) := by
  refine (Ideal.matmul_constant_zero_apply dot_S512x512_S512x32_S512x32_1_0_0_1_n_n none x w (ix2 r c)).trans ?_
  rw [← Equiv.sum_comp (contrEquiv1 dot_S512x512_S512x32_S512x32_1_0_0_1_n_n 512 rfl rfl).symm]
  refine Finset.sum_congr rfl fun k _ => ?_
  have hk := contrEquiv1_symm_val dot_S512x512_S512x32_S512x32_1_0_0_1_n_n 512 rfl rfl k
  have el : dot_S512x512_S512x32_S512x32_1_0_0_1_n_n.lhsIdx (ix2 r c) ((contrEquiv1 dot_S512x512_S512x32_S512x32_1_0_0_1_n_n 512 rfl rfl).symm k) = ix2 r k := funext fun a => Fin.ext (by
    match a with
    | ⟨0, _⟩ => exact lhs_hid2_0 _ _
    | ⟨1, _⟩ => exact (lhs_hid2_1 _ _).trans hk)
  have er : dot_S512x512_S512x32_S512x32_1_0_0_1_n_n.rhsIdx (ix2 r c) ((contrEquiv1 dot_S512x512_S512x32_S512x32_1_0_0_1_n_n 512 rfl rfl).symm k) = ix2 k c := funext fun a => Fin.ext (by
    match a with
    | ⟨0, _⟩ => exact (rhs_hid2_0 _ _).trans hk
    | ⟨1, _⟩ => exact rhs_hid2_1 _ _)
  rw [el, er]

/-! ### The summed row times the dense weights: a [1,32] by [32,2] product -/

theorem lhs_dense_0 (i : S1x2.Idx) (q : dot_S1x32_S32x2_S1x2_1_0_0_1_n_n.contr.Idx) :
    (dot_S1x32_S32x2_S1x2_1_0_0_1_n_n.lhsIdx i q 0).val = (i 0).val := by
  unfold DotDims.lhsIdx
  rw [dif_neg (show ¬(0 : Fin S1x32.rank) ∈ dot_S1x32_S32x2_S1x2_1_0_0_1_n_n.lhsBatch by decide), dif_pos (show (0 : Fin S1x32.rank) ∈ dot_S1x32_S32x2_S1x2_1_0_0_1_n_n.lhsNonContracting by decide)]
  rfl
theorem lhs_dense_1 (i : S1x2.Idx) (q : dot_S1x32_S32x2_S1x2_1_0_0_1_n_n.contr.Idx) :
    (dot_S1x32_S32x2_S1x2_1_0_0_1_n_n.lhsIdx i q 1).val = (q ⟨0, by decide⟩).val :=
  dot_S1x32_S32x2_S1x2_1_0_0_1_n_n.lhsIdx_val_of_single rfl i q
theorem rhs_dense_0 (i : S1x2.Idx) (q : dot_S1x32_S32x2_S1x2_1_0_0_1_n_n.contr.Idx) :
    (dot_S1x32_S32x2_S1x2_1_0_0_1_n_n.rhsIdx i q 0).val = (q ⟨0, by decide⟩).val :=
  dot_S1x32_S32x2_S1x2_1_0_0_1_n_n.rhsIdx_val_of_single rfl i q
theorem rhs_dense_1 (i : S1x2.Idx) (q : dot_S1x32_S32x2_S1x2_1_0_0_1_n_n.contr.Idx) :
    (dot_S1x32_S32x2_S1x2_1_0_0_1_n_n.rhsIdx i q 1).val = (i 1).val := by
  unfold DotDims.rhsIdx
  rw [dif_neg (show ¬(1 : Fin S32x2.rank) ∈ dot_S1x32_S32x2_S1x2_1_0_0_1_n_n.rhsBatch by decide), dif_pos (show (1 : Fin S32x2.rank) ∈ dot_S1x32_S32x2_S1x2_1_0_0_1_n_n.rhsNonContracting by decide)]
  rfl

/-- The product into the zero splat, at row `r` and column `c`: the sum over the contracted coordinate of the left operand's
    row `r` times the right operand's column `c`. -/
theorem matmul_dense_apply (x : FVec Ideal S1x32 .f32) (w : FVec Ideal S32x2 .f32) (r : Fin 1) (c : Fin 2) :
    matmul dot_S1x32_S32x2_S1x2_1_0_0_1_n_n none x w (constant (F := Ideal) S1x2 .f32 0x00000000#32) (ix2 r c)
      = ∑ k : Fin 32, x (ix2 r k) * w (ix2 k c) := by
  refine (Ideal.matmul_constant_zero_apply dot_S1x32_S32x2_S1x2_1_0_0_1_n_n none x w (ix2 r c)).trans ?_
  rw [← Equiv.sum_comp (contrEquiv1 dot_S1x32_S32x2_S1x2_1_0_0_1_n_n 32 rfl rfl).symm]
  refine Finset.sum_congr rfl fun k _ => ?_
  have hk := contrEquiv1_symm_val dot_S1x32_S32x2_S1x2_1_0_0_1_n_n 32 rfl rfl k
  have el : dot_S1x32_S32x2_S1x2_1_0_0_1_n_n.lhsIdx (ix2 r c) ((contrEquiv1 dot_S1x32_S32x2_S1x2_1_0_0_1_n_n 32 rfl rfl).symm k) = ix2 r k := funext fun a => Fin.ext (by
    match a with
    | ⟨0, _⟩ => exact lhs_dense_0 _ _
    | ⟨1, _⟩ => exact (lhs_dense_1 _ _).trans hk)
  have er : dot_S1x32_S32x2_S1x2_1_0_0_1_n_n.rhsIdx (ix2 r c) ((contrEquiv1 dot_S1x32_S32x2_S1x2_1_0_0_1_n_n 32 rfl rfl).symm k) = ix2 k c := funext fun a => Fin.ext (by
    match a with
    | ⟨0, _⟩ => exact (rhs_dense_0 _ _).trans hk
    | ⟨1, _⟩ => exact rhs_dense_1 _ _)
  rw [el, er]

/-! ### The sum over the 512 clusters -/

/-- The add reduction of a [512,32] array along its rows, at column `d`: the sum over the rows of the entries of that
    column. The row inserted into the reduced index `d` at position `k` is `(k, d)`. -/
theorem sum_rows_apply (x : FVec Ideal S512x32 .f32) (hacc : (0x00000000#32 : BitVec 32) = 0x00000000#32) (d : Fin 32) :
    multiReduction (F := Ideal) .add [0] S32 x 0x00000000#32 reduces_S512x32_S32 (.inl rfl) hacc (ix1 d)
      = ∑ k : Fin 512, x (ix2 k d) := by
  refine (Ideal.multiReduction_add_single x 0x00000000#32 reduces_S512x32_S32 (.inl rfl) hacc (ix1 d)).trans ?_
  refine Finset.sum_congr rfl fun k _ => congrArg x ?_
  funext a
  apply Fin.ext
  match a with
  | ⟨0, _⟩ => rfl
  | ⟨1, _⟩ => rfl

/-! ### The whole stretch at an index -/

/-- The second stretch of the payload read at output `o`, as nested sums of its five operands. -/
theorem pay9_rest_read (v61 : FVec Ideal S512x512 .f32) (v37 : FVec Ideal S512x32 .f32) (v62 : Vec Ideal S32x32 .f32) (v65 : Vec Ideal S1x32 .f32) (v73 : Vec Ideal S32x2 .f32) (o : Fin 2) :
    pay9_rest (F := Ideal) v61 v37 v62 v65 v73 (ix2 (0 : Fin 1) o)
      = ∑ d : Fin 32, (∑ k : Fin 512, max ((∑ l : Fin 512, v61 (ix2 k l) * ∑ c : Fin 32, v37 (ix2 l c) * v62 (ix2 c d)) + v65 (ix2 (0 : Fin 1) d)) 0) * v73 (ix2 d o) := by
  unfold pay9_rest
  refine (matmul_dense_apply _ v73 (0 : Fin 1) o).trans ?_
  refine Finset.sum_congr rfl fun d _ => congrArg (· * v73 (ix2 d o)) ?_
  refine (shapeCast_a_1a_apply _ _ (0 : Fin 1) d).trans ?_
  refine (sum_rows_apply _ rfl d).trans ?_
  refine Finset.sum_congr rfl fun k _ => ?_
  refine (maximumf_apply _ _ (ix2 k d)).trans ?_
  refine congrArg₂ max ?_ ?_
  · refine (addf_apply _ _ (ix2 k d)).trans ?_
    refine congrArg₂ (· + ·) ?_ ?_
    · refine (matmul_hid2_apply v61 _ k d).trans ?_
      refine Finset.sum_congr rfl fun l _ => congrArg (v61 (ix2 k l) * ·) ?_
      exact matmul_proj2_apply v37 v62 l d
    · refine (broadcastTo_1b_ab_apply _ _ k d).trans ?_
      exact congrFun (shapeCast_self v65 _) (ix2 (0 : Fin 1) d)
  · exact Ideal.ofBits_zero_f32

theorem pay9_rest_apply (v61 : FVec Ideal S512x512 .f32) (v37 : FVec Ideal S512x32 .f32) (v62 : Vec Ideal S32x32 .f32) (v65 : Vec Ideal S1x32 .f32) (v73 : Vec Ideal S32x2 .f32) (p : PoolNet.Pooled)
    (hN : ∀ (k l : Fin 512), v61 (ix2 k l) = PoolNet.normA p k l) (hXP : ∀ (k : Fin 512) (c : Fin 32), v37 (ix2 k c) = p.XP k c)
    (hW2 : ∀ (c d : Fin 32), v62 (ix2 c d) = p.W2 c d) (hB2 : ∀ d : Fin 32, v65 (ix2 (0 : Fin 1) d) = p.B2 d)
    (hWd : ∀ (d : Fin 32) (o : Fin 2), v73 (ix2 d o) = p.Wd d o) (o : Fin 2) :
    pay9_rest (F := Ideal) v61 v37 v62 v65 v73 (ix2 (0 : Fin 1) o) = PoolNet.dense p o := by
  refine (pay9_rest_read v61 v37 v62 v65 v73 o).trans ?_
  unfold PoolNet.dense PoolNet.readout PoolNet.hid2 PoolNet.proj2
  refine Finset.sum_congr rfl fun d _ => ?_
  rw [hWd d o]
  refine congrArg (· * p.Wd d o) (Finset.sum_congr rfl fun k _ => ?_)
  rw [hB2 d]
  refine congrArg (fun t => max (t + p.B2 d) 0) (Finset.sum_congr rfl fun l _ => ?_)
  rw [hN k l]
  refine congrArg (PoolNet.normA p k l * ·) (Finset.sum_congr rfl fun c _ => ?_)
  rw [hXP l c, hW2 c d]

/-- The stored value: the dense product plus the bias row, given a leading unit axis. -/
theorem pay1_apply (v74 v76 : FVec Ideal S1x2 .f32) (o : Fin 2) :
    k0_pay1 (F := Ideal) v74 v76 (ix3 (0 : Fin 1) (0 : Fin 1) o) = v74 (ix2 (0 : Fin 1) o) + v76 (ix2 (0 : Fin 1) o) := by
  unfold k0_pay1
  refine (shapeCast_ab_1ab_apply _ _ (0 : Fin 1) (0 : Fin 1) o).trans ?_
  exact addf_apply v74 v76 (ix2 (0 : Fin 1) o)

/-- The bias row's cast to its own shape is the identity. -/
theorem pay10_eq (v75 : Vec Ideal S1x2 .f32) : k0_pay10 (F := Ideal) v75 = v75 := by
  unfold k0_pay10
  exact shapeCast_self v75 _

end Cert.KernelIdeal.Val

end
-- ==== Proof.KerValue.lean ====
/-
  What the kernel's program leaves in its result array, read off its frame run.

  The grid has eight points, one per graph. Point `t` stages block `t` of the feature and adjacency arrays (a
  [1, 1024, ·] slab) and the whole of each weight array, and writes block `t` of the [8, 1, 2] output. So the graph that
  point `t`'s blocks hold is graph `t` of the batch; the body's stored value is the network's result on it; the eight
  written blocks tile the output array; and the reshape after the region drops the unit axis.
-/
import proofs.«106139_g75806172774760_cont_9to1_m_1287_3_alg».proof.Proof.Gen.KernelIdeal.Frame
import proofs.«106139_g75806172774760_cont_9to1_m_1287_3_alg».proof.Proof.SpecArrays
import proofs.«106139_g75806172774760_cont_9to1_m_1287_3_alg».proof.Proof.KerHid
import proofs.«106139_g75806172774760_cont_9to1_m_1287_3_alg».proof.Proof.KerAssign
import proofs.«106139_g75806172774760_cont_9to1_m_1287_3_alg».proof.Proof.KerPoolX
import proofs.«106139_g75806172774760_cont_9to1_m_1287_3_alg».proof.Proof.KerNorm
import proofs.«106139_g75806172774760_cont_9to1_m_1287_3_alg».proof.Proof.KerOut
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The grid point as a graph number. -/
def graphNo (t : Fin cfg0.N) : Fin 8 := ⟨t.val, Nat.lt_of_lt_of_eq t.isLt (N_0 : cfg0.N = 8)⟩

/-- The printed index maps, decided over the grid: the batched windows move with the point along their leading axis,
    every weight window stays at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0) :=
  (by decide +kernel : ∀ t : Fin grid0.N, _)

/-! ## Each window's block as a piece of its array -/

/-- The feature block at point `t` is graph `t`'s slab of the feature array. -/
theorem blk0_apply (c : Dev nD) (t : Fin cfg0.N) (i : Fin 1024) (f : Fin 129) :
    (iblk m c 0 t : Vec Ideal S1x1024x129 .f32) (ix3 (0 : Fin 1) i f)
      = (V m c main_arg0 : S8x1024x129.Idx → EReal) (ix3 (graphNo t) i f) := by
  obtain ⟨⟨e0, e1, e2⟩, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 129 + 1 * f.val = f.val; omega

/-- The adjacency block at point `t` is graph `t`'s slab of the adjacency array. -/
theorem blk1_apply (c : Dev nD) (t : Fin cfg0.N) (i k : Fin 1024) :
    (iblk m c 1 t : Vec Ideal S1x1024x1024 .f32) (ix3 (0 : Fin 1) i k)
      = (V m c main_arg1 : S8x1024x1024.Idx → EReal) (ix3 (graphNo t) i k) := by
  obtain ⟨-, ⟨e0, e1, e2⟩, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 1024 + 1 * k.val = k.val; omega

/-! A weight window's one block is its whole array. -/

theorem blk2_apply (c : Dev nD) (t : Fin cfg0.N) (p : Fin 128) (q : Fin 32) :
    (iblk m c 2 t : Vec Ideal S128x32 .f32) (ix2 p q) = (V m c main_arg2 : S128x32.Idx → EReal) (ix2 p q) := by
  obtain ⟨-, -, ⟨e0, e1⟩, -⟩ := idx_facts t
  unfold iblk
  rw [View.read_apply]
  show V m c main_arg2 _ = V m c main_arg2 _
  congr 1
  funext a
  apply Fin.ext
  match a with
  | ⟨0, _⟩ => show win0_2.index t (0 : Fin 2) * 128 + 1 * p.val = p.val; omega
  | ⟨1, _⟩ => show win0_2.index t (1 : Fin 2) * 32 + 1 * q.val = q.val; omega

theorem blk3_apply (c : Dev nD) (t : Fin cfg0.N) (p : Fin 1) (q : Fin 32) :
    (iblk m c 3 t : Vec Ideal S1x32 .f32) (ix2 p q) = (V m c main_v0 : S1x32.Idx → EReal) (ix2 p q) := by
  obtain ⟨-, -, -, ⟨e0, e1⟩, -⟩ := idx_facts t
  unfold iblk
  rw [View.read_apply]
  show V m c main_v0 _ = V m c main_v0 _
  congr 1
  funext a
  apply Fin.ext
  match a with
  | ⟨0, _⟩ => show win0_3.index t (0 : Fin 2) * 1 + 1 * p.val = p.val; omega
  | ⟨1, _⟩ => show win0_3.index t (1 : Fin 2) * 32 + 1 * q.val = q.val; omega

theorem blk4_apply (c : Dev nD) (t : Fin cfg0.N) (p : Fin 32) (q : Fin 512) :
    (iblk m c 4 t : Vec Ideal S32x512 .f32) (ix2 p q) = (V m c main_arg4 : S32x512.Idx → EReal) (ix2 p q) := by
  obtain ⟨-, -, -, -, ⟨e0, e1⟩, -⟩ := idx_facts t
  unfold iblk
  rw [View.read_apply]
  show V m c main_arg4 _ = V m c main_arg4 _
  congr 1
  funext a
  apply Fin.ext
  match a with
  | ⟨0, _⟩ => show win0_4.index t (0 : Fin 2) * 32 + 1 * p.val = p.val; omega
  | ⟨1, _⟩ => show win0_4.index t (1 : Fin 2) * 512 + 1 * q.val = q.val; omega

theorem blk5_apply (c : Dev nD) (t : Fin cfg0.N) (p : Fin 1) (q : Fin 512) :
    (iblk m c 5 t : Vec Ideal S1x512 .f32) (ix2 p q) = (V m c main_v1 : S1x512.Idx → EReal) (ix2 p q) := by
  obtain ⟨-, -, -, -, -, ⟨e0, e1⟩, -⟩ := idx_facts t
  unfold iblk
  rw [View.read_apply]
  show V m c main_v1 _ = V m c main_v1 _
  congr 1
  funext a
  apply Fin.ext
  match a with
  | ⟨0, _⟩ => show win0_5.index t (0 : Fin 2) * 1 + 1 * p.val = p.val; omega
  | ⟨1, _⟩ => show win0_5.index t (1 : Fin 2) * 512 + 1 * q.val = q.val; omega

theorem blk6_apply (c : Dev nD) (t : Fin cfg0.N) (p : Fin 32) (q : Fin 32) :
    (iblk m c 6 t : Vec Ideal S32x32 .f32) (ix2 p q) = (V m c main_arg6 : S32x32.Idx → EReal) (ix2 p q) := by
  obtain ⟨-, -, -, -, -, -, ⟨e0, e1⟩, -⟩ := idx_facts t
  unfold iblk
  rw [View.read_apply]
  show V m c main_arg6 _ = V m c main_arg6 _
  congr 1
  funext a
  apply Fin.ext
  match a with
  | ⟨0, _⟩ => show win0_6.index t (0 : Fin 2) * 32 + 1 * p.val = p.val; omega
  | ⟨1, _⟩ => show win0_6.index t (1 : Fin 2) * 32 + 1 * q.val = q.val; omega

theorem blk7_apply (c : Dev nD) (t : Fin cfg0.N) (p : Fin 1) (q : Fin 32) :
    (iblk m c 7 t : Vec Ideal S1x32 .f32) (ix2 p q) = (V m c main_v2 : S1x32.Idx → EReal) (ix2 p q) := by
  obtain ⟨-, -, -, -, -, -, -, ⟨e0, e1⟩, -⟩ := idx_facts t
  unfold iblk
  rw [View.read_apply]
  show V m c main_v2 _ = V m c main_v2 _
  congr 1
  funext a
  apply Fin.ext
  match a with
  | ⟨0, _⟩ => show win0_7.index t (0 : Fin 2) * 1 + 1 * p.val = p.val; omega
  | ⟨1, _⟩ => show win0_7.index t (1 : Fin 2) * 32 + 1 * q.val = q.val; omega

theorem blk8_apply (c : Dev nD) (t : Fin cfg0.N) (p : Fin 32) (q : Fin 2) :
    (iblk m c 8 t : Vec Ideal S32x2 .f32) (ix2 p q) = (V m c main_arg8 : S32x2.Idx → EReal) (ix2 p q) := by
  obtain ⟨-, -, -, -, -, -, -, -, ⟨e0, e1⟩, -⟩ := idx_facts t
  unfold iblk
  rw [View.read_apply]
  show V m c main_arg8 _ = V m c main_arg8 _
  congr 1
  funext a
  apply Fin.ext
  match a with
  | ⟨0, _⟩ => show win0_8.index t (0 : Fin 2) * 32 + 1 * p.val = p.val; omega
  | ⟨1, _⟩ => show win0_8.index t (1 : Fin 2) * 2 + 1 * q.val = q.val; omega

theorem blk9_apply (c : Dev nD) (t : Fin cfg0.N) (p : Fin 1) (q : Fin 2) :
    (iblk m c 9 t : Vec Ideal S1x2 .f32) (ix2 p q) = (V m c main_v3 : S1x2.Idx → EReal) (ix2 p q) := by
  obtain ⟨-, -, -, -, -, -, -, -, -, ⟨e0, e1⟩, -⟩ := idx_facts t
  unfold iblk
  rw [View.read_apply]
  show V m c main_v3 _ = V m c main_v3 _
  congr 1
  funext a
  apply Fin.ext
  match a with
  | ⟨0, _⟩ => show win0_9.index t (0 : Fin 2) * 1 + 1 * p.val = p.val; omega
  | ⟨1, _⟩ => show win0_9.index t (1 : Fin 2) * 2 + 1 * q.val = q.val; omega

/-! The four bias rows the region stages are the bias vectors given a leading unit axis by the host lines before it. -/

theorem row0_apply (c : Dev nD) (q : Fin 32) :
    (V m c main_v0 : S1x32.Idx → EReal) (ix2 (0 : Fin 1) q) = (m ((c : Thread nD τ).loc main_arg3) : S32.Idx → EReal) (ix1 q) := by
  have e : (V m c main_v0 : S1x32.Idx → EReal) = shapeCast S1x32 (m ((c : Thread nD τ).loc main_arg3) : S32.Idx → EReal) shapeCasts_S32_S1x32 := by
    show StableHlo.after hostOps0 (fun b => m (c, b)) (Proc.devRef .tc main_v0) = _
    after_results
    rfl
  rw [e]
  exact shapeCast_a_1a_apply _ _ _ _

theorem row1_apply (c : Dev nD) (q : Fin 512) :
    (V m c main_v1 : S1x512.Idx → EReal) (ix2 (0 : Fin 1) q) = (m ((c : Thread nD τ).loc main_arg5) : S512.Idx → EReal) (ix1 q) := by
  have e : (V m c main_v1 : S1x512.Idx → EReal) = shapeCast S1x512 (m ((c : Thread nD τ).loc main_arg5) : S512.Idx → EReal) shapeCasts_S512_S1x512 := by
    show StableHlo.after hostOps0 (fun b => m (c, b)) (Proc.devRef .tc main_v1) = _
    after_results
    rfl
  rw [e]
  exact shapeCast_a_1a_apply _ _ _ _

theorem row2_apply (c : Dev nD) (q : Fin 32) :
    (V m c main_v2 : S1x32.Idx → EReal) (ix2 (0 : Fin 1) q) = (m ((c : Thread nD τ).loc main_arg7) : S32.Idx → EReal) (ix1 q) := by
  have e : (V m c main_v2 : S1x32.Idx → EReal) = shapeCast S1x32 (m ((c : Thread nD τ).loc main_arg7) : S32.Idx → EReal) shapeCasts_S32_S1x32 := by
    show StableHlo.after hostOps0 (fun b => m (c, b)) (Proc.devRef .tc main_v2) = _
    after_results
    rfl
  rw [e]
  exact shapeCast_a_1a_apply _ _ _ _

theorem row3_apply (c : Dev nD) (q : Fin 2) :
    (V m c main_v3 : S1x2.Idx → EReal) (ix2 (0 : Fin 1) q) = (m ((c : Thread nD τ).loc main_arg9) : S2.Idx → EReal) (ix1 q) := by
  have e : (V m c main_v3 : S1x2.Idx → EReal) = shapeCast S1x2 (m ((c : Thread nD τ).loc main_arg9) : S2.Idx → EReal) shapeCasts_S2_S1x2 := by
    show StableHlo.after hostOps0 (fun b => m (c, b)) (Proc.devRef .tc main_v3) = _
    after_results
    rfl
  rw [e]
  exact shapeCast_a_1a_apply _ _ _ _

/-! ## One block's result -/

/-- The value the body stores, for any blocks that hold a graph `g`: the network's result on `g`. -/
theorem out_block (x0 : Vec Ideal S1x1024x129 .f32) (x1 : Vec Ideal S1x1024x1024 .f32) (x2 : Vec Ideal S128x32 .f32) (x3 : Vec Ideal S1x32 .f32) (x4 : Vec Ideal S32x512 .f32) (x5 : Vec Ideal S1x512 .f32) (x6 : Vec Ideal S32x32 .f32) (x7 : Vec Ideal S1x32 .f32) (x8 : Vec Ideal S32x2 .f32) (x9 : Vec Ideal S1x2 .f32) (g : PoolNet.Inputs)
    (hX : ∀ (i : Fin 1024) (f : Fin 129), x0 (ix3 (0 : Fin 1) i f) = g.X i f) (hA : ∀ (i k : Fin 1024), x1 (ix3 (0 : Fin 1) i k) = g.A i k)
    (hW1 : ∀ (f : Fin 128) (c : Fin 32), x2 (ix2 f c) = g.W1 f c) (hB1 : ∀ c : Fin 32, x3 (ix2 (0 : Fin 1) c) = g.B1 c)
    (hWs : ∀ (c : Fin 32) (k : Fin 512), x4 (ix2 c k) = g.Ws c k) (hBs : ∀ k : Fin 512, x5 (ix2 (0 : Fin 1) k) = g.Bs k)
    (hW2 : ∀ (c d : Fin 32), x6 (ix2 c d) = g.W2 c d) (hB2 : ∀ d : Fin 32, x7 (ix2 (0 : Fin 1) d) = g.B2 d)
    (hWd : ∀ (d : Fin 32) (o : Fin 2), x8 (ix2 d o) = g.Wd d o) (hBd : ∀ o : Fin 2, x9 (ix2 (0 : Fin 1) o) = g.Bd o) (o : Fin 2) :
    out0_10 (F := Ideal) x0 x1 x2 x3 x4 x5 x6 x7 x8 x9 (ix3 (0 : Fin 1) (0 : Fin 1) o) = PoolNet.result g o := by
  unfold out0_10
  rw [View.canon_unit_zero hz3]
  simp only [View.ld_unit_zero (S := S1x1024x129) hz3, View.ld_unit_zero (S := S1x1024x1024) hz3, View.ld_unit_zero (S := S128x32) hz2,
    View.ld_unit_zero (S := S1x32) hz2, View.ld_unit_zero (S := S32x512) hz2, View.ld_unit_zero (S := S1x512) hz2,
    View.ld_unit_zero (S := S32x32) hz2, View.ld_unit_zero (S := S32x2) hz2, View.ld_unit_zero (S := S1x2) hz2]
  rw [pay1_apply, pay10_eq, pay9_cut]
  rw [pay9_rest_apply _ _ _ _ _ (PoolNet.pooled g)
      (fun k l => pay9_norm_apply _ _ (PoolNet.pooled g) (fun n k' => (pay4_apply x1 n k').trans (hA n k'))
        (fun n k' => pay7_apply x0 x1 x2 x3 x4 x5 g hX hA hW1 hB1 hWs hBs n k') k l)
      (fun k c => pay8_apply x0 x1 x2 x3 x4 x5 g hX hA hW1 hB1 hWs hBs k c) hW2 hB2 hWd o]
  rw [hBd o]
  rfl

/-! ## From blocks to the array -/

/-- Graph `b` of the batch the program was started on. -/
def graphAt (c : Dev nD) (b : Fin 8) : PoolNet.Inputs :=
  PoolNet.graphOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b

/-- What the output array holds after the region: at (b, ·, o), output `o` of graph `b`. -/
def outArr (c : Dev nD) : S8x1x2.Idx → EReal := fun j => PoolNet.result (graphAt m c (j 0)) (j 2)

/-- What point `t` stores, read at any index of its block: output of graph `t`. -/
theorem block_value (c : Dev nD) (t : Fin cfg0.N) (y : S1x1x2.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = PoolNet.result (graphAt m c (graphNo t)) (y 2) := by
  obtain ⟨u, v, o, rfl⟩ : ∃ (u v : Fin 1) (o : Fin 2), y = ix3 u v o := ⟨y 0, y 1, y 2, eq_ix3 y⟩
  obtain rfl : u = 0 := Subsingleton.elim _ _
  obtain rfl : v = 0 := Subsingleton.elim _ _
  show _ = PoolNet.result (graphAt m c (graphNo t)) o
  refine out_block (iblk m c 0 t) (iblk m c 1 t) (iblk m c 2 t) (iblk m c 3 t) (iblk m c 4 t) (iblk m c 5 t) (iblk m c 6 t) (iblk m c 7 t) (iblk m c 8 t) (iblk m c 9 t) (graphAt m c (graphNo t)) ?_ ?_ ?_ ?_ ?_ ?_ ?_ ?_ ?_ ?_ o
  · exact fun i f => (blk0_apply m c t i f).trans (congrFun (V_main_arg0 m c) _)
  · exact fun i k => (blk1_apply m c t i k).trans (congrFun (V_main_arg1 m c) _)
  · exact fun f q => (blk2_apply m c t f q).trans (congrFun (V_main_arg2 m c) _)
  · exact fun q => (blk3_apply m c t 0 q).trans (row0_apply m c q)
  · exact fun p q => (blk4_apply m c t p q).trans (congrFun (V_main_arg4 m c) _)
  · exact fun q => (blk5_apply m c t 0 q).trans (row1_apply m c q)
  · exact fun p q => (blk6_apply m c t p q).trans (congrFun (V_main_arg6 m c) _)
  · exact fun q => (blk7_apply m c t 0 q).trans (row2_apply m c q)
  · exact fun p q => (blk8_apply m c t p q).trans (congrFun (V_main_arg8 m c) _)
  · exact fun q => (blk9_apply m c t 0 q).trans (row3_apply m c q)

/-- What point `t` writes back is block `t` of `outArr`. -/
theorem flushed_eq (c : Dev nD) (t : Fin cfg0.N) :
    (dats m 0 c).flushed 10 t = ((cfg0.win 10).blk t).view.read (Elt Ideal) (outArr m c) := by
  obtain ⟨-, -, -, -, -, -, -, -, -, -, ⟨e0, e1, e2⟩⟩ := idx_facts t
  show (cfg0.win 10).cut (grid0.coords t) ((dats m 0 c).after 10 t) = _
  rw [after0_10]
  funext y
  refine (block_value m c t y).trans ?_
  show PoolNet.result (graphAt m c (graphNo t)) (y 2)
      = PoolNet.result (graphAt m c ((((cfg0.win 10).blk t).view.emb y) 0)) ((((cfg0.win 10).blk t).view.emb y) 2)
  congr 1
  · congr 1
    apply Fin.ext
    show t.val = win0_10.index t (0 : Fin 3) * 1 + 1 * (y 0).val
    have h0 : (y 0).val < 1 := (y 0).isLt
    omega
  · apply Fin.ext
    show (y 2).val = win0_10.index t (2 : Fin 3) * 2 + 1 * (y 2).val
    omega

/-- An index of the output array is in point `t`'s block iff each coordinate is in the block's range on its axis. -/
theorem mem_blk (t : Fin cfg0.N) (i : S8x1x2.Idx) :
    i ∈ ((cfg0.win 10).blk t).view.set ↔ ∀ a : Fin 3, win0_10.index t a * S1x1x2.size a ≤ (i a).val ∧ (i a).val < win0_10.index t a * S1x1x2.size a + S1x1x2.size a := by
  show i ∈ ((View.whole main_v4).slice (win0_10.rect t)).set ↔ _
  rw [View.set_slice_whole, Rect.mem_set_unit]
  exact Iff.rfl

/-- The eight blocks tile the output array: index (b, ·, ·) is in point `b`'s block. -/
theorem covered (i : S8x1x2.Idx) : ∃ t : Fin cfg0.N, (cfg0.win 10).flush t = true ∧ i ∈ ((cfg0.win 10).blk t).view.set := by
  have hb : (i 0).val < 8 := (i 0).isLt
  have h1 : (i 1).val < 1 := (i 1).isLt
  have h2 : (i 2).val < 2 := (i 2).isLt
  obtain ⟨t, ht⟩ : ∃ t : Fin cfg0.N, t.val = (i 0).val := ⟨⟨(i 0).val, Nat.lt_of_lt_of_eq hb (N_0 : cfg0.N = 8).symm⟩, rfl⟩
  obtain ⟨-, -, -, -, -, -, -, -, -, -, ⟨e0, e1, e2⟩⟩ := idx_facts t
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 2 ≤ (i 2).val ∧ (i 2).val < win0_10.index t (2 : Fin 3) * 2 + 2; omega

/-- The output array after the region. -/
theorem final_out (c : Dev nD) : (dats m 0 c).arrAt 10 cfg0.N = outArr m c :=
  (dats m 0 c).arrAt_eq_of_cover 10 (outArr m c) (fun t _ => flushed_eq m c t) covered

/-! ## The reshape after the region, and the run -/

/-- The program's result: the output array with its unit axis dropped, which is the network's result on the batch. -/
theorem tail_value (c : Dev nD) :
    Pipeline.afterTail₀ cfgs (dats m) 0 (V0 m) [hostOps1] c main_v5
      = PoolNet.batchOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v5) = _
  after_results
  funext j
  obtain ⟨b, o, rfl⟩ : ∃ (b : Fin 8) (o : Fin 2), j = ix2 b o := ⟨j 0, j 1, eq_ix2 j⟩
  show shapeCast S8x2 (Pipeline.withArrays spec0 c (V0 m c) (fun w => (dats m 0 c).arrAt w cfg0.N) (Proc.devRef .tc main_v4) : S8x1x2.Idx → EReal) shapeCasts_S8x1x2_S8x2 (ix2 b o) = _
  rw [show (Pipeline.withArrays spec0 c (V0 m c) (fun w => (dats m 0 c).arrAt w cfg0.N) (Proc.devRef .tc main_v4) : S8x1x2.Idx → EReal) = outArr m c from
    (Pipeline.withArrays_arr spec0 launch0.win.arr_inj c _ _ 10).trans (final_out m c)]
  refine (shapeCast_apply _ _ (ix2 b o) (ix3 b (0 : Fin 1) o) ?_).trans rfl
  rw [Shape.rowMajor_val_three, Shape.rowMajor_val_two]
  show (b.val * 1 + 0) * 2 + o.val = b.val * 2 + o.val
  omega

/-- The frame run, read: the result array holds the network's result on the batch, and the arguments are unchanged. -/
theorem run : θ_run defs (onTc (τ := τ) (main (F := Ideal))) ⟨m, fun _ => 0, ρ⟩ fun r => ∀ c : Dev nD,
      r.2.mem ((c : Thread nD τ).loc main_v5) = PoolNet.batchOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c =>
    ⟨((h c).2 main_v5 (Pipeline.mem_restRefs_of main_v5 (by decide) (by decide))).trans (tail_value m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans ((((dats m) 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans ((((dats m) 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans ((((dats m) 0 c).arrAt_in 8 rfl _).trans ((A_eq m c 8).trans (V_main_arg8 m c))),
      ((h c).2 main_arg9 (Pipeline.mem_restRefs_of main_arg9 (by decide) (by decide))).trans (W_main_arg9 m (dats m) c)⟩)
    (run_main m ρ)

end Cert.KernelIdeal.Val

end
-- ==== Proof.RefHid.lean ====
/-
  The reference's first graph convolution, read at graph `b`.
-/
import proofs.«106139_g75806172774760_cont_9to1_m_1287_3_alg».proof.Proof.Gen.ReferenceIdeal.Read
import proofs.«106139_g75806172774760_cont_9to1_m_1287_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Idealize.ShloMosaic Idealize.ShloMosaic.ValueIdx Cert.ReferenceIdeal Cert.ReferenceIdeal.Read Cert

/-! ## Where each stage reads its operands

Each layout stage reads its operand at an index computed from the result's index. At a result index given by its
three coordinates these are again indices given by coordinates. -/

/-- The mask slice reads column 128. -/
theorem idx_v0_ix3 (b : Fin 8) (i : Fin 1024) :
    idx_main_v0 (ix3 b i (0 : Fin 1)) = ix3 b i (⟨128, by omega⟩ : Fin 129) :=
  funext fun a => Fin.ext (by match a with | ⟨0, _⟩ => rfl | ⟨1, _⟩ => rfl | ⟨2, _⟩ => rfl)

/-- The feature slice reads the same column of the wider array. -/
theorem idx_v1_ix3 (b : Fin 8) (i : Fin 1024) (f : Fin 128) :
    idx_main_v1 (ix3 b i f) = ix3 b i (⟨f.val, by omega⟩ : Fin 129) :=
  funext fun a => Fin.ext (by match a with | ⟨0, _⟩ => rfl | ⟨1, _⟩ => rfl | ⟨2, _⟩ => rfl)

/-- The first product contracts the feature axis: its left factor is node `i`'s feature `k`. -/
theorem lidx_v2_ix3 (b : Fin 8) (i : Fin 1024) (c : Fin 32) (k : Fin 128) :
    lidx_main_v2 (ix3 b i c) k = ix3 b i k :=
  funext fun a => Fin.ext (by match a with | ⟨0, _⟩ => rfl | ⟨1, _⟩ => rfl | ⟨2, _⟩ => rfl)

/-- Its right factor is the weight from feature `k` to channel `c`. -/
theorem ridx_v2_ix3 (b : Fin 8) (i : Fin 1024) (c : Fin 32) (k : Fin 128) :
    ridx_main_v2 (ix3 b i c) k = ix2 k c :=
  funext fun a => Fin.ext (by match a with | ⟨0, _⟩ => rfl | ⟨1, _⟩ => rfl)

/-- The batched product contracts the neighbour axis: its left factor is the adjacency entry `(i, m)` of graph `b`. -/
theorem lidx_v3_ix3 (b : Fin 8) (i : Fin 1024) (c : Fin 32) (m : Fin 1024) :
    lidx_main_v3 (ix3 b i c) m = ix3 b i m :=
  funext fun a => Fin.ext (by match a with | ⟨0, _⟩ => rfl | ⟨1, _⟩ => rfl | ⟨2, _⟩ => rfl)

/-- Its right factor is neighbour `m`'s projected channel `c` in the same graph. -/
theorem ridx_v3_ix3 (b : Fin 8) (i : Fin 1024) (c : Fin 32) (m : Fin 1024) :
    ridx_main_v3 (ix3 b i c) m = ix3 b m c :=
  funext fun a => Fin.ext (by match a with | ⟨0, _⟩ => rfl | ⟨1, _⟩ => rfl | ⟨2, _⟩ => rfl)

/-- The bias, broadcast twice, is read at the channel. -/
theorem idx_v4_v5_ix3 (b : Fin 8) (i : Fin 1024) (c : Fin 32) :
    idx_main_v4 (idx_main_v5 (ix3 b i c)) = ix1 c :=
  funext fun a => Fin.ext (by match a with | ⟨0, _⟩ => rfl)

/-- The mask column, broadcast along the channels, is read at the node. -/
theorem idx_v8_ix3 (b : Fin 8) (i : Fin 1024) (c : Fin 32) :
    idx_main_v8 (ix3 b i c) = ix3 b i (0 : Fin 1) :=
  funext fun a => Fin.ext (by match a with | ⟨0, _⟩ => rfl | ⟨1, _⟩ => rfl | ⟨2, _⟩ => rfl)

/-- The reference's mask column at graph `b`. -/
theorem v0_apply (x0 : (⟨S8x1024x129, .f32⟩ : BufTy).Contents (Elt Ideal)) (b : Fin 8) (g : PoolNet.Inputs) (hX : ∀ (i : Fin 1024) (f : Fin 129), x0 (ix3 b i f) = g.X i f) (i : Fin 1024) :
    val_main_v0 (F := Ideal) x0 (ix3 b i (0 : Fin 1)) = PoolNet.mask g i := by
  rw [val_main_v0_apply, idx_v0_ix3, hX]
  rfl

/-- The reference's features at graph `b`: the first 128 columns. -/
theorem v1_apply (x0 : (⟨S8x1024x129, .f32⟩ : BufTy).Contents (Elt Ideal)) (b : Fin 8) (g : PoolNet.Inputs)
    (hX : ∀ (i : Fin 1024) (f : Fin 129), x0 (ix3 b i f) = g.X i f) (i : Fin 1024) (f : Fin 128) :
    val_main_v1 (F := Ideal) x0 (ix3 b i f) = PoolNet.feat g i f := by
  rw [val_main_v1_apply, idx_v1_ix3, hX]
  rfl

/-- The reference's projected features at graph `b`. -/
theorem v2_apply (x0 : (⟨S8x1024x129, .f32⟩ : BufTy).Contents (Elt Ideal)) (x2 : (⟨S128x32, .f32⟩ : BufTy).Contents (Elt Ideal)) (b : Fin 8) (g : PoolNet.Inputs)
    (hX : ∀ (i : Fin 1024) (f : Fin 129), x0 (ix3 b i f) = g.X i f)
    (hW1 : ∀ (f : Fin 128) (c : Fin 32), x2 (ix2 f c) = g.W1 f c) (i : Fin 1024) (c : Fin 32) :
    val_main_v2 (F := Ideal) x0 x2 (ix3 b i c) = PoolNet.proj g i c := by
  rw [val_main_v2_apply]
  unfold PoolNet.proj
  refine Finset.sum_congr rfl fun k _ => ?_
  rw [lidx_v2_ix3, ridx_v2_ix3, v1_apply x0 b g hX, hW1]

/-- The reference's hidden features at graph `b` are the first graph convolution of that graph. -/
theorem v9_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (b : Fin 8) (g : PoolNet.Inputs)
    (hX : ∀ (i : Fin 1024) (f : Fin 129), x0 (ix3 b i f) = g.X i f) (hA : ∀ (i m : Fin 1024), x1 (ix3 b i m) = g.A i m)
    (hW1 : ∀ (f : Fin 128) (c : Fin 32), x2 (ix2 f c) = g.W1 f c) (hB1 : ∀ c : Fin 32, x3 (ix1 c) = g.B1 c) (i : Fin 1024) (c : Fin 32) :
    val_main_v9 (F := Ideal) x0 x1 x2 x3 (ix3 b i c) = PoolNet.hid g i c := by
  -- the propagated sum, neighbour by neighbour
  have hsum : val_main_v3 (F := Ideal) x0 x1 x2 (ix3 b i c) = ∑ m : Fin 1024, g.A i m * PoolNet.proj g m c := by
    rw [val_main_v3_apply]
    refine Finset.sum_congr rfl fun m _ => ?_
    rw [lidx_v3_ix3, ridx_v3_ix3, hA, v2_apply x0 x2 b g hX hW1]
  rw [val_main_v9_apply, val_main_v7_apply, val_main_v6_apply, val_main_v8_apply, val_main_call0_v0_apply,
    val_main_call0_cst_apply, val_main_v5_apply, val_main_v4_apply, idx_v4_v5_ix3, idx_v8_ix3, hsum, hB1,
    v0_apply x0 b g hX]
  simp only [Ideal.mulf_def, Ideal.maximumf_def, Ideal.addf_def, Ideal.ofBits_def, Ideal.ofBits_zero_f32]
  rfl

end Cert.ReferenceIdeal.RefVal

end
-- ==== Proof.RefAssign.lean ====
/-
  The reference's masked row softmax, read at graph `b`.
-/
import proofs.«106139_g75806172774760_cont_9to1_m_1287_3_alg».proof.Proof.RefHid

noncomputable section

namespace Cert.ReferenceIdeal.RefVal

open Idealize.ShloMosaic Idealize.ShloMosaic.ValueIdx Cert.ReferenceIdeal Cert.ReferenceIdeal.Read Cert

/-! ### Index equations -/

theorem lidx_v10_ix (b : Fin 8) (i : Fin 1024) (k : Fin 512) (c : Fin 32) :
    lidx_main_v10 (ix3 b i k) c = ix3 b i c :=
  funext fun a => Fin.ext (by match a with | ⟨0, _⟩ => rfl | ⟨1, _⟩ => rfl | ⟨2, _⟩ => rfl)

theorem ridx_v10_ix (b : Fin 8) (i : Fin 1024) (k : Fin 512) (c : Fin 32) :
    ridx_main_v10 (ix3 b i k) c = ix2 c k :=
  funext fun a => Fin.ext (by match a with | ⟨0, _⟩ => rfl | ⟨1, _⟩ => rfl)

theorem idx_v11_v12_ix (b : Fin 8) (i : Fin 1024) (k : Fin 512) :
    idx_main_v11 (idx_main_v12 (ix3 b i k)) = ix1 k :=
  funext fun a => Fin.ext (by match a with | ⟨0, _⟩ => rfl)

/-- The logits: the hidden features times the assignment weights, plus the bias. -/
theorem v13_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (g : PoolNet.Inputs)
    (hX : ∀ (i : Fin 1024) (f : Fin 129), x0 (ix3 b i f) = g.X i f) (hA : ∀ (i m : Fin 1024), x1 (ix3 b i m) = g.A i m)
    (hW1 : ∀ (f : Fin 128) (c : Fin 32), x2 (ix2 f c) = g.W1 f c) (hB1 : ∀ c : Fin 32, x3 (ix1 c) = g.B1 c)
    (hWs : ∀ (c : Fin 32) (k : Fin 512), x4 (ix2 c k) = g.Ws c k) (hBs : ∀ k : Fin 512, x5 (ix1 k) = g.Bs k) (i : Fin 1024) (k : Fin 512) :
    val_main_v13 (F := Ideal) x0 x1 x2 x3 x4 x5 (ix3 b i k) = PoolNet.logit g i k := by
  refine (val_main_v13_apply x0 x1 x2 x3 x4 x5 (ix3 b i k)).trans ?_
  show val_main_v10 (F := Ideal) x0 x1 x2 x3 x4 (ix3 b i k) + val_main_v12 (F := Ideal) x5 (ix3 b i k) = _
  rw [val_main_v10_apply, val_main_v12_apply, val_main_v11_apply, idx_v11_v12_ix, hBs]
  unfold PoolNet.logit
  refine congrArg (· + g.Bs k) (Finset.sum_congr rfl fun c _ => ?_)
  rw [lidx_v10_ix, ridx_v10_ix, hWs, v9_apply x0 x1 x2 x3 b g hX hA hW1 hB1]

/-! ### The row maximum -/

/-- The last axis of an [8, 1024, 512] array reduces away to [8, 1024]. -/
theorem reduces_d2 : S8x1024x512.Reduces [2] S8x1024 := by decide

/-- The index over (b, i) with k inserted on the reduced axis. -/
theorem lift_d2_ix (h : S8x1024x512.Reduces [2] S8x1024) (b : Fin 8) (i : Fin 1024) (k : Fin 512) :
    h.lift (ix2 b i) k = ix3 b i k :=
  funext fun a => Fin.ext (by match a with | ⟨0, _⟩ => rfl | ⟨1, _⟩ => rfl | ⟨2, _⟩ => rfl)

/-- The max-reduce over the cluster axis is the fold of max, from the value of the initial word, over that axis. -/
theorem v14_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (i : Fin 1024) :
    val_main_v14 (F := Ideal) x0 x1 x2 x3 x4 x5 (ix2 b i)
      = (Finset.univ : Finset (Fin 512)).fold max PoolNet.negInfWord (fun k => val_main_v13 (F := Ideal) x0 x1 x2 x3 x4 x5 (ix3 b i k)) := by
  unfold val_main_v14
  refine (Host.reduce_eq_fold_single (FloatOps.maximumf (F := Ideal) (φ := .f32)) (val_main_v13 (F := Ideal) x0 x1 x2 x3 x4 x5)
    (val_main_cst (F := Ideal)) Gen.reducesTo_S8x1024x512_S8x1024_d2 reduces_d2 Gen.h_S_ (ix2 b i)).trans ?_
  show (Finset.univ : Finset (Fin 512)).fold max PoolNet.negInfWord
    (fun k => val_main_v13 (F := Ideal) x0 x1 x2 x3 x4 x5 (reduces_d2.lift (ix2 b i) k)) = _
  exact Finset.fold_congr (fun k _ => congrArg (val_main_v13 (F := Ideal) x0 x1 x2 x3 x4 x5) (lift_d2_ix reduces_d2 b i k))

/-- The row maximum: taking max once more with the initial value changes nothing, a fold of max from a value being at least that value. -/
theorem v16_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (g : PoolNet.Inputs)
    (hX : ∀ (i : Fin 1024) (f : Fin 129), x0 (ix3 b i f) = g.X i f) (hA : ∀ (i m : Fin 1024), x1 (ix3 b i m) = g.A i m)
    (hW1 : ∀ (f : Fin 128) (c : Fin 32), x2 (ix2 f c) = g.W1 f c) (hB1 : ∀ c : Fin 32, x3 (ix1 c) = g.B1 c)
    (hWs : ∀ (c : Fin 32) (k : Fin 512), x4 (ix2 c k) = g.Ws c k) (hBs : ∀ k : Fin 512, x5 (ix1 k) = g.Bs k) (i : Fin 1024) :
    val_main_v16 (F := Ideal) x0 x1 x2 x3 x4 x5 (ix2 b i) = PoolNet.rowMax g i := by
  refine (val_main_v16_apply x0 x1 x2 x3 x4 x5 (ix2 b i)).trans ?_
  show max (val_main_v15 (F := Ideal) (ix2 b i)) (val_main_v14 (F := Ideal) x0 x1 x2 x3 x4 x5 (ix2 b i)) = _
  rw [val_main_v15_apply, v14_apply]
  show max PoolNet.negInfWord ((Finset.univ : Finset (Fin 512)).fold max PoolNet.negInfWord
    (fun k => val_main_v13 (F := Ideal) x0 x1 x2 x3 x4 x5 (ix3 b i k))) = _
  rw [max_eq_right ((Finset.le_fold_max _).mpr (Or.inl le_rfl))]
  unfold PoolNet.rowMax
  exact Finset.fold_congr (fun k _ => v13_apply x0 x1 x2 x3 x4 x5 b g hX hA hW1 hB1 hWs hBs i k)

/-! ### The shifted exponentials, their sum, and the masked quotient -/

theorem idx_v17_v18_ix (b : Fin 8) (i : Fin 1024) (k : Fin 512) :
    idx_main_v17 (idx_main_v18 (ix3 b i k)) = ix2 b i :=
  funext fun a => Fin.ext (by match a with | ⟨0, _⟩ => rfl | ⟨1, _⟩ => rfl)

/-- The exponential of a logit less its row's maximum. -/
theorem v20_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (g : PoolNet.Inputs)
    (hX : ∀ (i : Fin 1024) (f : Fin 129), x0 (ix3 b i f) = g.X i f) (hA : ∀ (i m : Fin 1024), x1 (ix3 b i m) = g.A i m)
    (hW1 : ∀ (f : Fin 128) (c : Fin 32), x2 (ix2 f c) = g.W1 f c) (hB1 : ∀ c : Fin 32, x3 (ix1 c) = g.B1 c)
    (hWs : ∀ (c : Fin 32) (k : Fin 512), x4 (ix2 c k) = g.Ws c k) (hBs : ∀ k : Fin 512, x5 (ix1 k) = g.Bs k) (i : Fin 1024) (k : Fin 512) :
    val_main_v20 (F := Ideal) x0 x1 x2 x3 x4 x5 (ix3 b i k) = PoolNet.expo g i k := by
  refine (val_main_v20_apply x0 x1 x2 x3 x4 x5 (ix3 b i k)).trans ?_
  show Ideal.exp (val_main_v13 (F := Ideal) x0 x1 x2 x3 x4 x5 (ix3 b i k) - val_main_v18 (F := Ideal) x0 x1 x2 x3 x4 x5 (ix3 b i k)) = _
  rw [val_main_v18_apply, val_main_v17_apply, idx_v17_v18_ix, v16_apply x0 x1 x2 x3 x4 x5 b g hX hA hW1 hB1 hWs hBs,
    v13_apply x0 x1 x2 x3 x4 x5 b g hX hA hW1 hB1 hWs hBs]
  rfl

theorem idx_v21_ix (b : Fin 8) (i : Fin 1024) (k : Fin 512) :
    idx_main_v21 (ix2 b i) k = ix3 b i k :=
  funext fun a => Fin.ext (by match a with | ⟨0, _⟩ => rfl | ⟨1, _⟩ => rfl | ⟨2, _⟩ => rfl)

/-- A row's normaliser: the sum starts from the zero word, whose value is zero. -/
theorem v21_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (g : PoolNet.Inputs)
    (hX : ∀ (i : Fin 1024) (f : Fin 129), x0 (ix3 b i f) = g.X i f) (hA : ∀ (i m : Fin 1024), x1 (ix3 b i m) = g.A i m)
    (hW1 : ∀ (f : Fin 128) (c : Fin 32), x2 (ix2 f c) = g.W1 f c) (hB1 : ∀ c : Fin 32, x3 (ix1 c) = g.B1 c)
    (hWs : ∀ (c : Fin 32) (k : Fin 512), x4 (ix2 c k) = g.Ws c k) (hBs : ∀ k : Fin 512, x5 (ix1 k) = g.Bs k) (i : Fin 1024) :
    val_main_v21 (F := Ideal) x0 x1 x2 x3 x4 x5 (ix2 b i) = PoolNet.rowSum g i := by
  refine (val_main_v21_apply x0 x1 x2 x3 x4 x5 (ix2 b i)).trans ?_
  show Ideal.ofBits .f32 0x00000000#32 + _ = _
  rw [Ideal.ofBits_zero_f32, zero_add]
  unfold PoolNet.rowSum
  refine Finset.sum_congr rfl fun k _ => ?_
  rw [idx_v21_ix, v20_apply x0 x1 x2 x3 x4 x5 b g hX hA hW1 hB1 hWs hBs]

theorem idx_v22_v23_ix (b : Fin 8) (i : Fin 1024) (k : Fin 512) :
    idx_main_v22 (idx_main_v23 (ix3 b i k)) = ix2 b i :=
  funext fun a => Fin.ext (by match a with | ⟨0, _⟩ => rfl | ⟨1, _⟩ => rfl)

theorem idx_v25_ix (b : Fin 8) (i : Fin 1024) (k : Fin 512) :
    idx_main_v25 (ix3 b i k) = ix3 b i (0 : Fin 1) :=
  funext fun a => Fin.ext (by match a with | ⟨0, _⟩ => rfl | ⟨1, _⟩ => rfl | ⟨2, _⟩ => rfl)

theorem v26_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (g : PoolNet.Inputs)
    (hX : ∀ (i : Fin 1024) (f : Fin 129), x0 (ix3 b i f) = g.X i f) (hA : ∀ (i m : Fin 1024), x1 (ix3 b i m) = g.A i m)
    (hW1 : ∀ (f : Fin 128) (c : Fin 32), x2 (ix2 f c) = g.W1 f c) (hB1 : ∀ c : Fin 32, x3 (ix1 c) = g.B1 c)
    (hWs : ∀ (c : Fin 32) (k : Fin 512), x4 (ix2 c k) = g.Ws c k) (hBs : ∀ k : Fin 512, x5 (ix1 k) = g.Bs k) (i : Fin 1024) (k : Fin 512) :
    val_main_v26 (F := Ideal) x0 x1 x2 x3 x4 x5 (ix3 b i k) = PoolNet.assign g i k := by
  refine (val_main_v26_apply x0 x1 x2 x3 x4 x5 (ix3 b i k)).trans ?_
  show Ideal.div (val_main_v20 (F := Ideal) x0 x1 x2 x3 x4 x5 (ix3 b i k)) (val_main_v23 (F := Ideal) x0 x1 x2 x3 x4 x5 (ix3 b i k))
    * val_main_v25 (F := Ideal) x0 (ix3 b i k) = _
  rw [val_main_v23_apply, val_main_v22_apply, idx_v22_v23_ix, v21_apply x0 x1 x2 x3 x4 x5 b g hX hA hW1 hB1 hWs hBs,
    v20_apply x0 x1 x2 x3 x4 x5 b g hX hA hW1 hB1 hWs hBs, val_main_v25_apply, idx_v25_ix, v0_apply x0 b g hX]
  rfl

end Cert.ReferenceIdeal.RefVal

end
-- ==== Proof.RefPoolX.lean ====
/-
  The reference's pooled features, read at graph `b`.
-/
import proofs.«106139_g75806172774760_cont_9to1_m_1287_3_alg».proof.Proof.RefAssign

noncomputable section

namespace Cert.ReferenceIdeal.RefVal

open Idealize.ShloMosaic Idealize.ShloMosaic.ValueIdx Cert.ReferenceIdeal Cert.ReferenceIdeal.Read Cert

/-! ## Index equations

The two composed index maps of the batched contraction over the node axis, at an index given by its coordinates. -/

theorem lidx27_ix (b : Fin 8) (k : Fin 512) (c : Fin 32) (n : Fin 1024) : lidx_main_v27 (ix3 b k c) n = ix3 b n k :=
  funext fun a => Fin.ext (by match a with | ⟨0, _⟩ => rfl | ⟨1, _⟩ => rfl | ⟨2, _⟩ => rfl)

theorem ridx27_ix (b : Fin 8) (k : Fin 512) (c : Fin 32) (n : Fin 1024) : ridx_main_v27 (ix3 b k c) n = ix3 b n c :=
  funext fun a => Fin.ext (by match a with | ⟨0, _⟩ => rfl | ⟨1, _⟩ => rfl | ⟨2, _⟩ => rfl)

theorem v27_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (g : PoolNet.Inputs)
    (hX : ∀ (i : Fin 1024) (f : Fin 129), x0 (ix3 b i f) = g.X i f) (hA : ∀ (i m : Fin 1024), x1 (ix3 b i m) = g.A i m)
    (hW1 : ∀ (f : Fin 128) (c : Fin 32), x2 (ix2 f c) = g.W1 f c) (hB1 : ∀ c : Fin 32, x3 (ix1 c) = g.B1 c)
    (hWs : ∀ (c : Fin 32) (k : Fin 512), x4 (ix2 c k) = g.Ws c k) (hBs : ∀ k : Fin 512, x5 (ix1 k) = g.Bs k) (k : Fin 512) (c : Fin 32) :
    val_main_v27 (F := Ideal) x0 x1 x2 x3 x4 x5 (ix3 b k c) = PoolNet.pooledX g k c := by
  -- the pooled feature is the sum over the nodes of the assignment times the hidden feature
  refine (val_main_v27_apply x0 x1 x2 x3 x4 x5 (ix3 b k c)).trans ?_
  unfold PoolNet.pooledX
  refine Finset.sum_congr rfl fun n _ => ?_
  rw [lidx27_ix, ridx27_ix, v26_apply x0 x1 x2 x3 x4 x5 b g hX hA hW1 hB1 hWs hBs n k,
    v9_apply x0 x1 x2 x3 b g hX hA hW1 hB1 n c]

end Cert.ReferenceIdeal.RefVal

end
-- ==== Proof.RefNorm.lean ====
/-
  The reference's pooled adjacency, diagonal removed and degree-normalised, read at graph `b`.
-/
import proofs.«106139_g75806172774760_cont_9to1_m_1287_3_alg».proof.Proof.Gen.ReferenceIdeal.Read
import proofs.«106139_g75806172774760_cont_9to1_m_1287_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefVal

open Idealize.ShloMosaic Idealize.ShloMosaic.ValueIdx Cert.ReferenceIdeal Cert.ReferenceIdeal.Read Cert

/-! ### Index equations

Each stage reads its operand at an index computed from the literal shapes; at an index built from its coordinates
that index is again one built from coordinates. -/

theorem lidx28_ix (b : Fin 8) (n : Fin 1024) (l : Fin 512) (m : Fin 1024) :
    lidx_main_v28 (ix3 b n l) m = ix3 b n m :=
  funext fun a => Fin.ext (by match a with | ⟨0, _⟩ => rfl | ⟨1, _⟩ => rfl | ⟨2, _⟩ => rfl)

theorem ridx28_ix (b : Fin 8) (n : Fin 1024) (l : Fin 512) (m : Fin 1024) :
    ridx_main_v28 (ix3 b n l) m = ix3 b m l :=
  funext fun a => Fin.ext (by match a with | ⟨0, _⟩ => rfl | ⟨1, _⟩ => rfl | ⟨2, _⟩ => rfl)

theorem lidx29_ix (b : Fin 8) (k l : Fin 512) (n : Fin 1024) :
    lidx_main_v29 (ix3 b k l) n = ix3 b n k :=
  funext fun a => Fin.ext (by match a with | ⟨0, _⟩ => rfl | ⟨1, _⟩ => rfl | ⟨2, _⟩ => rfl)

theorem ridx29_ix (b : Fin 8) (k l : Fin 512) (n : Fin 1024) :
    ridx_main_v29 (ix3 b k l) n = ix3 b n l :=
  funext fun a => Fin.ext (by match a with | ⟨0, _⟩ => rfl | ⟨1, _⟩ => rfl | ⟨2, _⟩ => rfl)

theorem idx39_ix (b : Fin 8) (k l : Fin 512) :
    idx_main_v38 (idx_main_v39 (ix3 b k l)) = ix2 k l :=
  funext fun a => Fin.ext (by match a with | ⟨0, _⟩ => rfl | ⟨1, _⟩ => rfl)

theorem idx41_ix (b : Fin 8) (k l : Fin 512) :
    idx_main_v41 (ix2 b k) l = ix3 b k l :=
  funext fun a => Fin.ext (by match a with | ⟨0, _⟩ => rfl | ⟨1, _⟩ => rfl | ⟨2, _⟩ => rfl)

theorem idx51_ix (b : Fin 8) (k l : Fin 512) :
    idx_main_v50 (idx_main_v51 (ix3 b k l)) = ix2 b k :=
  funext fun a => Fin.ext (by match a with | ⟨0, _⟩ => rfl | ⟨1, _⟩ => rfl)

theorem idx54_ix (b : Fin 8) (k l : Fin 512) :
    idx_main_v53 (idx_main_v54 (ix3 b k l)) = ix2 b l :=
  funext fun a => Fin.ext (by match a with | ⟨0, _⟩ => rfl | ⟨1, _⟩ => rfl)

/-! ### The diagonal

The reference builds the identity pattern from two counters: the row counter plus a zero word is compared with the
column counter. Both counters are below 512, far below 2 ^ 32, so the words are equal exactly when the indices are. -/

theorem eyeWord (k l : Fin 512) :
    IntOp.cmpi .eq (IntOp.addi (BitVec.ofNat 32 k.val) 0#32) (BitVec.ofNat 32 l.val) = if k = l then 1#1 else 0#1 := by
  show BitVec.ofBool (BitVec.ofNat 32 k.val + 0#32 == BitVec.ofNat 32 l.val) = _
  rw [BitVec.add_zero]
  by_cases h : k = l
  · subst h
    rw [if_pos rfl, beq_self_eq_true]; rfl
  · rw [if_neg h]
    have hne : (BitVec.ofNat 32 k.val == BitVec.ofNat 32 l.val) = false := by
      rw [beq_eq_false_iff_ne]
      intro hh
      apply h
      apply Fin.ext
      have ht := congrArg BitVec.toNat hh
      simp only [BitVec.toNat_ofNat] at ht
      have hk := k.isLt
      have hl := l.isLt
      omega
    rw [hne]; rfl

theorem one_sub_one : (1 : EReal) - 1 = 0 := by
  rw [← EReal.coe_one, ← EReal.coe_sub, sub_self, EReal.coe_zero]

/-- One minus the identity pattern: zero on the diagonal, one off it. -/
theorem v37_at (k l : Fin 512) :
    val_main_v37 (F := Ideal) (ix2 k l) = if k = l then 0 else 1 := by
  rw [val_main_v37_apply, val_main_v36_apply, val_main_cst_2_apply, val_main_v35_apply, val_main_v34_apply,
    val_main_v33_apply, val_main_v30_apply, val_main_v31_apply, val_main_v32_apply, val_main_c_apply]
  show Ideal.ofBits .f32 0x3F800000#32
      - (((IntOp.cmpi .eq (IntOp.addi (BitVec.ofNat 32 k.val) 0#32) (BitVec.ofNat 32 l.val)).toNat : ℝ) : EReal) = _
  rw [eyeWord, Ideal.ofBits_one_f32]
  by_cases h : k = l
  · rw [if_pos h, if_pos h]
    show (1 : EReal) - (((1 : ℕ) : ℝ) : EReal) = 0
    rw [Nat.cast_one, EReal.coe_one, one_sub_one]
  · rw [if_neg h, if_neg h]
    show (1 : EReal) - (((0 : ℕ) : ℝ) : EReal) = 1
    rw [Nat.cast_zero, EReal.coe_zero, sub_zero]

theorem v39_at (b : Fin 8) (k l : Fin 512) :
    val_main_v39 (F := Ideal) (ix3 b k l) = if k = l then 0 else 1 := by
  rw [val_main_v39_apply, val_main_v38_apply, idx39_ix, v37_at]

section Stages

variable (x0 : (⟨S8x1024x129, .f32⟩ : BufTy).Contents (Elt Ideal)) (x1 : (⟨S8x1024x1024, .f32⟩ : BufTy).Contents (Elt Ideal))
  (x2 : (⟨S128x32, .f32⟩ : BufTy).Contents (Elt Ideal)) (x3 : (⟨S32, .f32⟩ : BufTy).Contents (Elt Ideal))
  (x4 : (⟨S32x512, .f32⟩ : BufTy).Contents (Elt Ideal)) (x5 : (⟨S512, .f32⟩ : BufTy).Contents (Elt Ideal))
  (b : Fin 8) (p : PoolNet.Pooled)
  (hA : ∀ (n m : Fin 1024), x1 (ix3 b n m) = p.A n m)
  (hS : ∀ (n : Fin 1024) (k : Fin 512), val_main_v26 (F := Ideal) x0 x1 x2 x3 x4 x5 (ix3 b n k) = p.S n k)

include hA hS

/-- The adjacency times the assignment. -/
theorem v28_at (n : Fin 1024) (l : Fin 512) :
    val_main_v28 (F := Ideal) x0 x1 x2 x3 x4 x5 (ix3 b n l) = PoolNet.spread p n l := by
  rw [val_main_v28_apply]
  unfold PoolNet.spread
  refine Finset.sum_congr rfl fun m _ => ?_
  rw [lidx28_ix, ridx28_ix, hA, hS]

/-- The assignment transposed times the spread. -/
theorem v29_at (k l : Fin 512) :
    val_main_v29 (F := Ideal) x0 x1 x2 x3 x4 x5 (ix3 b k l) = PoolNet.pooledA p k l := by
  rw [val_main_v29_apply]
  unfold PoolNet.pooledA
  refine Finset.sum_congr rfl fun n _ => ?_
  rw [lidx29_ix, ridx29_ix, hS, v28_at x0 x1 x2 x3 x4 x5 b p hA hS]

/-- The pooled adjacency times one minus the identity pattern is the pooled adjacency with its diagonal removed:
on the diagonal `x * 0 = 0`, off it `x * 1 = x`, for every extended real `x`. -/
theorem v40_at (k l : Fin 512) :
    val_main_v40 (F := Ideal) x0 x1 x2 x3 x4 x5 (ix3 b k l) = PoolNet.offDiag p k l := by
  rw [val_main_v40_apply, v29_at x0 x1 x2 x3 x4 x5 b p hA hS, v39_at]
  show PoolNet.pooledA p k l * (if k = l then 0 else 1) = PoolNet.offDiag p k l
  unfold PoolNet.offDiag
  by_cases h : k = l
  · rw [if_pos h, if_pos h, mul_zero]
  · rw [if_neg h, if_neg h, mul_one]

/-- The degree: the row sum, started from the zero word. -/
theorem v41_at (k : Fin 512) :
    val_main_v41 (F := Ideal) x0 x1 x2 x3 x4 x5 (ix2 b k) = PoolNet.deg p k := by
  rw [val_main_v41_apply, val_main_cst_3_apply]
  show Ideal.ofBits .f32 0x00000000#32 + _ = _
  rw [Ideal.ofBits_zero_f32, zero_add]
  unfold PoolNet.deg
  refine Finset.sum_congr rfl fun l _ => ?_
  rw [idx41_ix, v40_at x0 x1 x2 x3 x4 x5 b p hA hS]

/-- One over the root of the clamped degree where the degree is positive, zero elsewhere. -/
theorem v49_at (k : Fin 512) :
    val_main_v49 (F := Ideal) x0 x1 x2 x3 x4 x5 (ix2 b k) = PoolNet.invRootDeg p k := by
  rw [val_main_v49_apply, val_main_v43_apply, val_main_v48_apply, val_main_call1_v1_apply, val_main_call1_v0_apply,
    val_main_cst_7_apply, val_main_v42_apply, val_main_cst_4_apply, val_main_v47_apply, val_main_cst_6_apply,
    val_main_v46_apply, val_main_v45_apply, val_main_v44_apply, val_main_cst_5_apply,
    v41_at x0 x1 x2 x3 x4 x5 b p hA hS]
  show Scalar.select (Ideal.cmp .ogt (PoolNet.deg p k) (Ideal.ofBits .f32 0x00000000#32))
      (Ideal.div (Ideal.ofBits .f32 0x3F800000#32)
        (Ideal.sqrt (max (PoolNet.deg p k) (Ideal.ofBits .f32 0x2B8CBCCC#32))))
      (Ideal.ofBits .f32 0x00000000#32) = PoolNet.invRootDeg p k
  rw [Ideal.ofBits_zero_f32]
  rfl

end Stages

theorem v55_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (b : Fin 8) (p : PoolNet.Pooled)
    (hA : ∀ (n m : Fin 1024), x1 (ix3 b n m) = p.A n m)
    (hS : ∀ (n : Fin 1024) (k : Fin 512), val_main_v26 (F := Ideal) x0 x1 x2 x3 x4 x5 (ix3 b n k) = p.S n k)
    (k l : Fin 512) :
    val_main_v55 (F := Ideal) x0 x1 x2 x3 x4 x5 (ix3 b k l) = PoolNet.normA p k l := by
  rw [val_main_v55_apply, val_main_v52_apply, val_main_v51_apply, val_main_v50_apply, val_main_v54_apply,
    val_main_v53_apply, idx51_ix, idx54_ix, v49_at x0 x1 x2 x3 x4 x5 b p hA hS, v49_at x0 x1 x2 x3 x4 x5 b p hA hS,
    v40_at x0 x1 x2 x3 x4 x5 b p hA hS]
  rfl

end Cert.ReferenceIdeal.RefVal

end
-- ==== Proof.RefOut.lean ====
/-
  The reference's second graph convolution, sum over clusters and dense layer, read at graph `b`.
-/
import proofs.«106139_g75806172774760_cont_9to1_m_1287_3_alg».proof.Proof.Gen.ReferenceIdeal.Read
import proofs.«106139_g75806172774760_cont_9to1_m_1287_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Idealize.ShloMosaic Idealize.ShloMosaic.ValueIdx Cert.ReferenceIdeal Cert.ReferenceIdeal.Read Cert

/-! ## Index equations

Each composed index map of the generated reading, at an index given by its coordinates, is the index one expects. -/

theorem lidx56_ix (b : Fin 8) (k : Fin 512) (d c : Fin 32) : lidx_main_v56 (ix3 b k d) c = ix3 b k c :=
  funext fun a => Fin.ext (by match a with | ⟨0, _⟩ => rfl | ⟨1, _⟩ => rfl | ⟨2, _⟩ => rfl)

theorem ridx56_ix (b : Fin 8) (k : Fin 512) (d c : Fin 32) : ridx_main_v56 (ix3 b k d) c = ix2 c d :=
  funext fun a => Fin.ext (by match a with | ⟨0, _⟩ => rfl | ⟨1, _⟩ => rfl)

theorem lidx57_ix (b : Fin 8) (k : Fin 512) (d : Fin 32) (l : Fin 512) : lidx_main_v57 (ix3 b k d) l = ix3 b k l :=
  funext fun a => Fin.ext (by match a with | ⟨0, _⟩ => rfl | ⟨1, _⟩ => rfl | ⟨2, _⟩ => rfl)

theorem ridx57_ix (b : Fin 8) (k : Fin 512) (d : Fin 32) (l : Fin 512) : ridx_main_v57 (ix3 b k d) l = ix3 b l d :=
  funext fun a => Fin.ext (by match a with | ⟨0, _⟩ => rfl | ⟨1, _⟩ => rfl | ⟨2, _⟩ => rfl)

theorem idx59_ix (b : Fin 8) (k : Fin 512) (d : Fin 32) : idx_main_v58 (idx_main_v59 (ix3 b k d)) = ix1 d :=
  funext fun a => Fin.ext (by match a with | ⟨0, _⟩ => rfl)

theorem idx62_ix (b : Fin 8) (d : Fin 32) (k : Fin 512) : idx_main_v62 (ix2 b d) k = ix3 b k d :=
  funext fun a => Fin.ext (by match a with | ⟨0, _⟩ => rfl | ⟨1, _⟩ => rfl | ⟨2, _⟩ => rfl)

theorem lidx63_ix (b : Fin 8) (o : Fin 2) (d : Fin 32) : lidx_main_v63 (ix2 b o) d = ix2 b d :=
  funext fun a => Fin.ext (by match a with | ⟨0, _⟩ => rfl | ⟨1, _⟩ => rfl)

theorem ridx63_ix (b : Fin 8) (o : Fin 2) (d : Fin 32) : ridx_main_v63 (ix2 b o) d = ix2 d o :=
  funext fun a => Fin.ext (by match a with | ⟨0, _⟩ => rfl | ⟨1, _⟩ => rfl)

theorem idx65_ix (b : Fin 8) (o : Fin 2) : idx_main_v64 (idx_main_v65 (ix2 b o)) = ix1 o :=
  funext fun a => Fin.ext (by match a with | ⟨0, _⟩ => rfl)

/-! ## The stages, one at a time -/

section Stages

variable (x0 : (⟨S8x1024x129, .f32⟩ : BufTy).Contents (Elt Ideal)) (x1 : (⟨S8x1024x1024, .f32⟩ : BufTy).Contents (Elt Ideal))
  (x2 : (⟨S128x32, .f32⟩ : BufTy).Contents (Elt Ideal)) (x3 : (⟨S32, .f32⟩ : BufTy).Contents (Elt Ideal))
  (x4 : (⟨S32x512, .f32⟩ : BufTy).Contents (Elt Ideal)) (x5 : (⟨S512, .f32⟩ : BufTy).Contents (Elt Ideal))
  (x6 : (⟨S32x32, .f32⟩ : BufTy).Contents (Elt Ideal)) (x7 : (⟨S32, .f32⟩ : BufTy).Contents (Elt Ideal))
  (x8 : (⟨S32x2, .f32⟩ : BufTy).Contents (Elt Ideal)) (x9 : (⟨S2, .f32⟩ : BufTy).Contents (Elt Ideal))
  (b : Fin 8) (p : PoolNet.Pooled)

/-- Pooled features times the second weight matrix. -/
theorem v56_at
    (hXP : ∀ (k : Fin 512) (c : Fin 32), val_main_v27 (F := Ideal) x0 x1 x2 x3 x4 x5 (ix3 b k c) = p.XP k c)
    (hW2 : ∀ (c d : Fin 32), x6 (ix2 c d) = p.W2 c d) (k : Fin 512) (d : Fin 32) :
    val_main_v56 (F := Ideal) x0 x1 x2 x3 x4 x5 x6 (ix3 b k d) = PoolNet.proj2 p k d := by
  refine (val_main_v56_apply x0 x1 x2 x3 x4 x5 x6 (ix3 b k d)).trans ?_
  unfold PoolNet.proj2
  refine Finset.sum_congr rfl fun c _ => ?_
  rw [lidx56_ix, ridx56_ix, hXP, hW2]

/-- The bias of the second convolution, broadcast over graphs and clusters. -/
theorem v59_at (hB2 : ∀ d : Fin 32, x7 (ix1 d) = p.B2 d) (k : Fin 512) (d : Fin 32) :
    val_main_v59 (F := Ideal) x7 (ix3 b k d) = p.B2 d := by
  rw [val_main_v59_apply, val_main_v58_apply, idx59_ix, hB2]

/-- The second graph convolution: propagated by the normalised pooled adjacency, biased, clamped below at zero. -/
theorem v61_at
    (hN : ∀ (k l : Fin 512), val_main_v55 (F := Ideal) x0 x1 x2 x3 x4 x5 (ix3 b k l) = PoolNet.normA p k l)
    (hXP : ∀ (k : Fin 512) (c : Fin 32), val_main_v27 (F := Ideal) x0 x1 x2 x3 x4 x5 (ix3 b k c) = p.XP k c)
    (hW2 : ∀ (c d : Fin 32), x6 (ix2 c d) = p.W2 c d) (hB2 : ∀ d : Fin 32, x7 (ix1 d) = p.B2 d)
    (k : Fin 512) (d : Fin 32) :
    val_main_v61 (F := Ideal) x0 x1 x2 x3 x4 x5 x6 x7 (ix3 b k d) = PoolNet.hid2 p k d := by
  rw [val_main_v61_apply, val_main_v60_apply, val_main_call2_v0_apply, val_main_call2_cst_apply,
    v59_at x7 b p hB2 k d, val_main_v57_apply]
  simp only [Ideal.maximumf_def, Ideal.addf_def, Ideal.ofBits_def, Ideal.ofBits_zero_f32]
  unfold PoolNet.hid2
  refine congrArg (fun s => max (s + p.B2 d) 0) (Finset.sum_congr rfl fun l _ => ?_)
  rw [lidx57_ix, ridx57_ix, hN, v56_at x0 x1 x2 x3 x4 x5 x6 b p hXP hW2 l d]

/-- The sum over the clusters. -/
theorem v62_at
    (hN : ∀ (k l : Fin 512), val_main_v55 (F := Ideal) x0 x1 x2 x3 x4 x5 (ix3 b k l) = PoolNet.normA p k l)
    (hXP : ∀ (k : Fin 512) (c : Fin 32), val_main_v27 (F := Ideal) x0 x1 x2 x3 x4 x5 (ix3 b k c) = p.XP k c)
    (hW2 : ∀ (c d : Fin 32), x6 (ix2 c d) = p.W2 c d) (hB2 : ∀ d : Fin 32, x7 (ix1 d) = p.B2 d)
    (d : Fin 32) :
    val_main_v62 (F := Ideal) x0 x1 x2 x3 x4 x5 x6 x7 (ix2 b d) = PoolNet.readout p d := by
  refine (val_main_v62_apply x0 x1 x2 x3 x4 x5 x6 x7 (ix2 b d)).trans ?_
  rw [val_main_cst_8_apply, Ideal.ofBits_def, Ideal.ofBits_zero_f32, zero_add]
  unfold PoolNet.readout
  refine Finset.sum_congr rfl fun k _ => ?_
  rw [idx62_ix, v61_at x0 x1 x2 x3 x4 x5 x6 x7 b p hN hXP hW2 hB2 k d]

/-- The final dense layer before its bias. -/
theorem v63_at
    (hN : ∀ (k l : Fin 512), val_main_v55 (F := Ideal) x0 x1 x2 x3 x4 x5 (ix3 b k l) = PoolNet.normA p k l)
    (hXP : ∀ (k : Fin 512) (c : Fin 32), val_main_v27 (F := Ideal) x0 x1 x2 x3 x4 x5 (ix3 b k c) = p.XP k c)
    (hW2 : ∀ (c d : Fin 32), x6 (ix2 c d) = p.W2 c d) (hB2 : ∀ d : Fin 32, x7 (ix1 d) = p.B2 d)
    (hWd : ∀ (d : Fin 32) (o : Fin 2), x8 (ix2 d o) = p.Wd d o) (o : Fin 2) :
    val_main_v63 (F := Ideal) x0 x1 x2 x3 x4 x5 x6 x7 x8 (ix2 b o) = PoolNet.dense p o := by
  refine (val_main_v63_apply x0 x1 x2 x3 x4 x5 x6 x7 x8 (ix2 b o)).trans ?_
  unfold PoolNet.dense
  refine Finset.sum_congr rfl fun d _ => ?_
  rw [lidx63_ix, ridx63_ix, v62_at x0 x1 x2 x3 x4 x5 x6 x7 b p hN hXP hW2 hB2 d, hWd]

/-- The bias of the dense layer, broadcast over graphs. -/
theorem v65_at (hBd : ∀ o : Fin 2, x9 (ix1 o) = p.Bd o) (o : Fin 2) :
    val_main_v65 (F := Ideal) x9 (ix2 b o) = p.Bd o := by
  rw [val_main_v65_apply, val_main_v64_apply, idx65_ix, hBd]

end Stages

theorem v66_apply (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (x6 : (⟨S32x32, .f32⟩ : BufTy).Contents (Elt Ideal)) (x7 : (⟨S32, .f32⟩ : BufTy).Contents (Elt Ideal)) (x8 : (⟨S32x2, .f32⟩ : BufTy).Contents (Elt Ideal)) (x9 : (⟨S2, .f32⟩ : BufTy).Contents (Elt Ideal)) (b : Fin 8) (p : PoolNet.Pooled)
    (hN : ∀ (k l : Fin 512), val_main_v55 (F := Ideal) x0 x1 x2 x3 x4 x5 (ix3 b k l) = PoolNet.normA p k l)
    (hXP : ∀ (k : Fin 512) (c : Fin 32), val_main_v27 (F := Ideal) x0 x1 x2 x3 x4 x5 (ix3 b k c) = p.XP k c)
    (hW2 : ∀ (c d : Fin 32), x6 (ix2 c d) = p.W2 c d) (hB2 : ∀ d : Fin 32, x7 (ix1 d) = p.B2 d)
    (hWd : ∀ (d : Fin 32) (o : Fin 2), x8 (ix2 d o) = p.Wd d o) (hBd : ∀ o : Fin 2, x9 (ix1 o) = p.Bd o) (o : Fin 2) :
    val_main_v66 (F := Ideal) x0 x1 x2 x3 x4 x5 x6 x7 x8 x9 (ix2 b o) = PoolNet.out p o := by
  rw [val_main_v66_apply, v63_at x0 x1 x2 x3 x4 x5 x6 x7 x8 b p hN hXP hW2 hB2 hWd o, v65_at x9 b p hBd o]
  rfl

end Cert.ReferenceIdeal.RefVal

end
-- ==== Proof.RefValue.lean ====
/-
  The reference's result array is the network's result on the batch: at (b, o), output `o` of graph `b`.
-/
import proofs.«106139_g75806172774760_cont_9to1_m_1287_3_alg».proof.Proof.RefHid
import proofs.«106139_g75806172774760_cont_9to1_m_1287_3_alg».proof.Proof.RefAssign
import proofs.«106139_g75806172774760_cont_9to1_m_1287_3_alg».proof.Proof.RefPoolX
import proofs.«106139_g75806172774760_cont_9to1_m_1287_3_alg».proof.Proof.RefNorm
import proofs.«106139_g75806172774760_cont_9to1_m_1287_3_alg».proof.Proof.RefOut
import proofs.«106139_g75806172774760_cont_9to1_m_1287_3_alg».proof.Proof.SpecArrays

noncomputable section

namespace Cert.ReferenceIdeal.RefVal

open Idealize.ShloMosaic Idealize.ShloMosaic.ValueIdx Cert.ReferenceIdeal Cert.ReferenceIdeal.Read Cert

theorem ref_value (x0 : (⟨S8x1024x129, .f32⟩ : BufTy).Contents (Elt Ideal)) (x1 : (⟨S8x1024x1024, .f32⟩ : BufTy).Contents (Elt Ideal)) (x2 : (⟨S128x32, .f32⟩ : BufTy).Contents (Elt Ideal)) (x3 : (⟨S32, .f32⟩ : BufTy).Contents (Elt Ideal)) (x4 : (⟨S32x512, .f32⟩ : BufTy).Contents (Elt Ideal)) (x5 : (⟨S512, .f32⟩ : BufTy).Contents (Elt Ideal)) (x6 : (⟨S32x32, .f32⟩ : BufTy).Contents (Elt Ideal)) (x7 : (⟨S32, .f32⟩ : BufTy).Contents (Elt Ideal)) (x8 : (⟨S32x2, .f32⟩ : BufTy).Contents (Elt Ideal)) (x9 : (⟨S2, .f32⟩ : BufTy).Contents (Elt Ideal)) :
    val_main_v66 (F := Ideal) x0 x1 x2 x3 x4 x5 x6 x7 x8 x9 = PoolNet.batchOut x0 x1 x2 x3 x4 x5 x6 x7 x8 x9 := by
  funext j
  obtain ⟨b, o, rfl⟩ : ∃ (b : Fin 8) (o : Fin 2), j = ix2 b o := ⟨j 0, j 1, eq_ix2 j⟩
  rw [PoolNet.batchOut_apply]
  -- graph `b` of the batch; its fields are the reads of the argument arrays, so every input hypothesis holds by definition
  let g : PoolNet.Inputs := PoolNet.graphOf x0 x1 x2 x3 x4 x5 x6 x7 x8 x9 b
  -- the soft assignment of graph `b`
  have hS : ∀ (n : Fin 1024) (k : Fin 512),
      val_main_v26 (F := Ideal) x0 x1 x2 x3 x4 x5 (ix3 b n k) = PoolNet.assign g n k := fun n k =>
    v26_apply x0 x1 x2 x3 x4 x5 b g (fun _ _ => rfl) (fun _ _ => rfl) (fun _ _ => rfl) (fun _ => rfl)
      (fun _ _ => rfl) (fun _ => rfl) n k
  -- the pooled features of graph `b`
  have hXP : ∀ (k : Fin 512) (c : Fin 32),
      val_main_v27 (F := Ideal) x0 x1 x2 x3 x4 x5 (ix3 b k c) = PoolNet.pooledX g k c := fun k c =>
    v27_apply x0 x1 x2 x3 x4 x5 b g (fun _ _ => rfl) (fun _ _ => rfl) (fun _ _ => rfl) (fun _ => rfl)
      (fun _ _ => rfl) (fun _ => rfl) k c
  -- the normalised pooled adjacency of graph `b`
  have hN : ∀ (k l : Fin 512),
      val_main_v55 (F := Ideal) x0 x1 x2 x3 x4 x5 (ix3 b k l) = PoolNet.normA (PoolNet.pooled g) k l := fun k l =>
    v55_apply x0 x1 x2 x3 x4 x5 b (PoolNet.pooled g) (fun _ _ => rfl) hS k l
  -- the second half of the network on the pooled graph
  exact v66_apply x0 x1 x2 x3 x4 x5 x6 x7 x8 x9 b (PoolNet.pooled g) hN hXP
    (fun _ _ => rfl) (fun _ => rfl) (fun _ _ => rfl) (fun _ => rfl) o

end Cert.ReferenceIdeal.RefVal

end
-- ==== Proof.lean ====
/-
  A pooled graph network on a batch of eight graphs: a fused kernel, one grid point per graph, against the plain
  batched reference.

  On the extended reals both programs compute, for graph `b` and output `o`, `PoolNet.result` of graph `b`
  (Proof/Spec.lean): a graph convolution, a masked soft assignment of the 1024 nodes to 512 clusters, the pooled
  features and the pooled adjacency with its diagonal removed and degree-normalised, a second graph convolution, the sum
  over clusters and a dense layer. The kernel's changes of float format are the identity there, its products into a zero
  accumulator are the reference's contractions, its row reductions are the reference's sums, and the two ways of
  removing the diagonal (selecting zero on it; multiplying by one minus the identity) agree because x · 0 = 0 and
  x · 1 = x for every extended real x. No step needs the inputs to be finite.

  Kernel side: what one grid point's blocks hold is graph `t` of the batch, the body's stored value is the result on
  it (Proof/KerHid, KerAssign, KerPoolX, KerNorm, KerOut), the eight written blocks tile the output array, and the
  reshape after the region drops the unit axis (Proof/KerValue). Reference side: its stages read at graph `b`
  (Proof/RefHid, RefAssign, RefPoolX, RefNorm, RefOut, RefValue). The frames of the two kernel programs and the
  reference's run are the generated ones; the idealization rewrote nothing, so `preserves` is trivial.
-/
import proofs.«106139_g75806172774760_cont_9to1_m_1287_3_alg».proof.Defs
import proofs.«106139_g75806172774760_cont_9to1_m_1287_3_alg».proof.Proof.Gen.Kernel
import proofs.«106139_g75806172774760_cont_9to1_m_1287_3_alg».proof.Proof.Gen.Kernel.Skeleton
import proofs.«106139_g75806172774760_cont_9to1_m_1287_3_alg».proof.Proof.Gen.Kernel.Launch
import proofs.«106139_g75806172774760_cont_9to1_m_1287_3_alg».proof.Proof.Gen.Kernel.Points
import proofs.«106139_g75806172774760_cont_9to1_m_1287_3_alg».proof.Proof.Gen.Kernel.Frame
import proofs.«106139_g75806172774760_cont_9to1_m_1287_3_alg».proof.Proof.Gen.KernelIdeal
import proofs.«106139_g75806172774760_cont_9to1_m_1287_3_alg».proof.Proof.Gen.KernelIdeal.Skeleton
import proofs.«106139_g75806172774760_cont_9to1_m_1287_3_alg».proof.Proof.Gen.KernelIdeal.Launch
import proofs.«106139_g75806172774760_cont_9to1_m_1287_3_alg».proof.Proof.Gen.KernelIdeal.Points
import proofs.«106139_g75806172774760_cont_9to1_m_1287_3_alg».proof.Proof.Gen.KernelIdeal.Frame
import proofs.«106139_g75806172774760_cont_9to1_m_1287_3_alg».proof.Proof.Gen.ReferenceIdeal
import proofs.«106139_g75806172774760_cont_9to1_m_1287_3_alg».proof.Proof.Gen.Pre_finite_inputs
import proofs.«106139_g75806172774760_cont_9to1_m_1287_3_alg».proof.Proof.Gen.ReferenceIdeal.Run
import proofs.«106139_g75806172774760_cont_9to1_m_1287_3_alg».proof.Proof.Gen.ReferenceIdeal.Read
import proofs.«106139_g75806172774760_cont_9to1_m_1287_3_alg».proof.Proof.KerValue
import proofs.«106139_g75806172774760_cont_9to1_m_1287_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's result on the batch: the kernel's by its frame run read through its blocks,
    the reference's by its run read stage by stage, of arguments that agree. -/
theorem algebraic : Cert.algebraic_KernelIdeal_ReferenceIdeal := by
  intro m ρ m' ρ' _ hagree
  refine ⟨fun c => PoolNet.batchOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.RefVal.ref_value]
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
